-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x617 : Shape := ⟨2, ![32, 617]⟩
abbrev S617x10000 : Shape := ⟨2, ![617, 10000]⟩
abbrev S100x10000 : Shape := ⟨2, ![100, 10000]⟩
abbrev S26x10000 : Shape := ⟨2, ![26, 10000]⟩
abbrev S_ : Shape := ⟨0, ![]⟩

class Facts : Prop where
  bcast_S_S32x617 : S_.BroadcastsInDim S32x617 (![] : Fin 0 → Fin S32x617.rank)
  reducesTo_S32x617_S_d0_1 : S32x617.ReducesTo [0, 1] S_
  h_S_ : 0 < S_.numel
  bcast_S_S617x10000 : S_.BroadcastsInDim S617x10000 (![] : Fin 0 → Fin S617x10000.rank)
  reducesTo_S617x10000_S_d0_1 : S617x10000.ReducesTo [0, 1] S_
  bcast_S_S100x10000 : S_.BroadcastsInDim S100x10000 (![] : Fin 0 → Fin S100x10000.rank)
  reducesTo_S100x10000_S_d0_1 : S100x10000.ReducesTo [0, 1] S_
  bcast_S_S26x10000 : S_.BroadcastsInDim S26x10000 (![] : Fin 0 → Fin S26x10000.rank)
  reducesTo_S26x10000_S_d0_1 : S26x10000.ReducesTo [0, 1] S_

variable [Facts]

def fn_part1 {F : FTy → Type} [FloatOps F] (main_v13 : IVec S_ 1) (main_v16 : IVec S26x10000 1) : IVec S_ 1 :=
  let main_c_5 : IVec S_ 1 := constantI S_ 1 1#1
  let main_v17 : IVec S_ 1 := (fun x v => Host.reduce IntOp.andi x v reducesTo_S26x10000_S_d0_1 h_S_) main_v16 main_c_5
  let main_v18 : IVec S_ 1 := andi main_v13 main_v17
  main_v18

def fn {F : FTy → Type} [FloatOps F] (main_arg0 : FVec F S32x617 .f32) (main_arg1 : FVec F S617x10000 .f32) (main_arg2 : FVec F S100x10000 .f32) (main_arg3 : FVec F S26x10000 .f32) : IVec S_ 1 :=
  let main_v0 : FVec F S32x617 .f32 := Host.absf main_arg0
  let main_cst : FVec F S_ .f32 := constant S_ .f32 0x7F800000#32
  let main_v1 : FVec F S32x617 .f32 := broadcastInDim S32x617 ![] bcast_S_S32x617 main_cst
  let main_v2 : IVec S32x617 1 := cmpf .olt main_v0 main_v1
  let main_c : IVec S_ 1 := constantI S_ 1 1#1
  let main_v3 : IVec S_ 1 := (fun x v => Host.reduce IntOp.andi x v reducesTo_S32x617_S_d0_1 h_S_) main_v2 main_c
  let main_v4 : FVec F S617x10000 .f32 := Host.absf main_arg1
  let main_cst_0 : FVec F S_ .f32 := constant S_ .f32 0x7F800000#32
  let main_v5 : FVec F S617x10000 .f32 := broadcastInDim S617x10000 ![] bcast_S_S617x10000 main_cst_0
  let main_v6 : IVec S617x10000 1 := cmpf .olt main_v4 main_v5
  let main_c_1 : IVec S_ 1 := constantI S_ 1 1#1
  let main_v7 : IVec S_ 1 := (fun x v => Host.reduce IntOp.andi x v reducesTo_S617x10000_S_d0_1 h_S_) main_v6 main_c_1
  let main_v8 : IVec S_ 1 := andi main_v3 main_v7
  let main_v9 : FVec F S100x10000 .f32 := Host.absf main_arg2
  let main_cst_2 : FVec F S_ .f32 := constant S_ .f32 0x7F800000#32
  let main_v10 : FVec F S100x10000 .f32 := broadcastInDim S100x10000 ![] bcast_S_S100x10000 main_cst_2
  let main_v11 : IVec S100x10000 1 := cmpf .olt main_v9 main_v10
  let main_c_3 : IVec S_ 1 := constantI S_ 1 1#1
  let main_v12 : IVec S_ 1 := (fun x v => Host.reduce IntOp.andi x v reducesTo_S100x10000_S_d0_1 h_S_) main_v11 main_c_3
  let main_v13 : IVec S_ 1 := andi main_v8 main_v12
  let main_v14 : FVec F S26x10000 .f32 := Host.absf main_arg3
  let main_cst_4 : FVec F S_ .f32 := constant S_ .f32 0x7F800000#32
  let main_v15 : FVec F S26x10000 .f32 := broadcastInDim S26x10000 ![] bcast_S_S26x10000 main_cst_4
  let main_v16 : IVec S26x10000 1 := cmpf .olt main_v14 main_v15
  fn_part1 (F := F) main_v13 main_v16
-- ==== Kernel.lean ====
abbrev S32x617 : Shape := ⟨2, ![32, 617]⟩
abbrev S617x10000 : Shape := ⟨2, ![617, 10000]⟩
abbrev S100x10000 : Shape := ⟨2, ![100, 10000]⟩
abbrev S26x10000 : Shape := ⟨2, ![26, 10000]⟩
abbrev S_ : Shape := ⟨0, ![]⟩
abbrev S32x640 : Shape := ⟨2, ![32, 640]⟩
abbrev S128 : Shape := ⟨1, ![128]⟩
abbrev S32x640x1 : Shape := ⟨3, ![32, 640, 1]⟩
abbrev S1x1x128 : Shape := ⟨3, ![1, 1, 128]⟩
abbrev S32x640x128 : Shape := ⟨3, ![32, 640, 128]⟩
abbrev S640x10240 : Shape := ⟨2, ![640, 10240]⟩
abbrev S128x10240 : Shape := ⟨2, ![128, 10240]⟩
abbrev S26x10240 : Shape := ⟨2, ![26, 10240]⟩
abbrev S32x10240 : Shape := ⟨2, ![32, 10240]⟩
abbrev S640x640 : Shape := ⟨2, ![640, 640]⟩
abbrev S128x640 : Shape := ⟨2, ![128, 640]⟩
abbrev S32x128x128 : Shape := ⟨3, ![32, 128, 128]⟩
abbrev S4096x128 : Shape := ⟨2, ![4096, 128]⟩
abbrev S4096x640 : Shape := ⟨2, ![4096, 640]⟩
abbrev S32x128x640 : Shape := ⟨3, ![32, 128, 640]⟩
abbrev S1x128x640 : Shape := ⟨3, ![1, 128, 640]⟩
abbrev S32x26 : Shape := ⟨2, ![32, 26]⟩

abbrev nBuf : Space → Nat
  | .hbm => 40
  | .vmem => 10
  | .smem => 0
  | _ => 0

abbrev bufTy : (tb : Table) → Fin (tcTables nBuf tb) → BufTy
  | .hbm, ⟨0, _⟩ => ⟨S32x617, .f32⟩
  | .hbm, ⟨1, _⟩ => ⟨S617x10000, .f32⟩
  | .hbm, ⟨2, _⟩ => ⟨S100x10000, .f32⟩
  | .hbm, ⟨3, _⟩ => ⟨S26x10000, .f32⟩
  | .hbm, ⟨4, _⟩ => ⟨S_, .f32⟩
  | .hbm, ⟨5, _⟩ => ⟨S32x617, .f32⟩
  | .hbm, ⟨6, _⟩ => ⟨S32x617, .f32⟩
  | .hbm, ⟨7, _⟩ => ⟨S32x617, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S32x617, .f32⟩
  | .hbm, ⟨12, _⟩ => ⟨S32x617, .f32⟩
  | .hbm, ⟨13, _⟩ => ⟨S_, .f32⟩
  | .hbm, ⟨14, _⟩ => ⟨S32x617, .f32⟩
  | .hbm, ⟨15, _⟩ => ⟨S32x617, .f32⟩
  | .hbm, ⟨16, _⟩ => ⟨S32x617, .i32⟩
  | .hbm, ⟨17, _⟩ => ⟨S_, .i32⟩
  | .hbm, ⟨18, _⟩ => ⟨S_, .i32⟩
  | .hbm, ⟨19, _⟩ => ⟨S32x640, .i32⟩
  | .hbm, ⟨20, _⟩ => ⟨S128, .i32⟩
  | .hbm, ⟨21, _⟩ => ⟨S32x640x1, .i32⟩
  | .hbm, ⟨22, _⟩ => ⟨S1x1x128, .i32⟩
  | .hbm, ⟨23, _⟩ => ⟨S32x640x128, .i32⟩
  | .hbm, ⟨24, _⟩ => ⟨S32x640x128, .i32⟩
  | .hbm, ⟨25, _⟩ => ⟨S32x640x128, .i1⟩
  | .hbm, ⟨26, _⟩ => ⟨S32x640x128, .bf16⟩
  | .hbm, ⟨27, _⟩ => ⟨S_, .i32⟩
  | .hbm, ⟨28, _⟩ => ⟨S_, .f32⟩
  | .hbm, ⟨29, _⟩ => ⟨S640x10240, .f32⟩
  | .hbm, ⟨30, _⟩ => ⟨S640x10240, .bf16⟩
  | .hbm, ⟨31, _⟩ => ⟨S_, .i32⟩
  | .hbm, ⟨32, _⟩ => ⟨S_, .f32⟩
  | .hbm, ⟨33, _⟩ => ⟨S128x10240, .f32⟩
  | .hbm, ⟨34, _⟩ => ⟨S128x10240, .bf16⟩
  | .hbm, ⟨35, _⟩ => ⟨S_, .i32⟩
  | .hbm, ⟨36, _⟩ => ⟨S_, .f32⟩
  | .hbm, ⟨37, _⟩ => ⟨S26x10240, .f32⟩
  | .hbm, ⟨38, _⟩ => ⟨S32x10240, .f32⟩
  | .hbm, ⟨39, _⟩ => ⟨S32x26, .f32⟩
  | .local _ .vmem, ⟨0, _⟩ => ⟨S32x640x128, .bf16⟩
  | .local _ .vmem, ⟨1, _⟩ => ⟨S640x640, .bf16⟩
  | .local _ .vmem, ⟨2, _⟩ => ⟨S640x640, .bf16⟩
  | .local _ .vmem, ⟨3, _⟩ => ⟨S128x640, .bf16⟩
  | .local _ .vmem, ⟨4, _⟩ => ⟨S128x640, .bf16⟩
  | .local _ .vmem, ⟨5, _⟩ => ⟨S32x640, .f32⟩
  | .local _ .vmem, ⟨6, _⟩ => ⟨S32x640, .f32⟩
  | .local _ .vmem, ⟨7, _⟩ => ⟨S32x10240, .f32⟩
  | .local _ .vmem, ⟨8, _⟩ => ⟨S26x10240, .f32⟩
  | .local _ .vmem, ⟨9, _⟩ => ⟨S32x26, .f32⟩
  | _, _ => ⟨S32x617, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call2_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_call3_v0 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_call4_v0 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_call5_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v1 : BitVec 32 := Scalar.muli c0_i32 c128_i32
  v1
def k0_off1 (c0_i32 : BitVec 32) : Fin 3 → Nat :=
  let c0 : Index := 0#32
  let c128_i32 : BitVec 32 := 128#32
  let v1 : BitVec 32 := Scalar.muli c0_i32 c128_i32
  let v2 : BitVec 32 := v1
  let v3 : Index := Scalar.indexCast v2
  let c0_0 : Index := 0#32
  ![0, v3.toNat, 0]
def k0_off2 (c0_i32 : BitVec 32) : Fin 2 → Nat :=
  let c128_i32 : BitVec 32 := 128#32
  let v1 : BitVec 32 := Scalar.muli c0_i32 c128_i32
  let v2 : BitVec 32 := v1
  let v11 : Index := Scalar.indexCast v2
  let c0_4 : Index := 0#32
  ![v11.toNat, 0]
def k0_mult2 : BitVec 32 :=
  let c1_i32 : BitVec 32 := 1#32
  let c128_i32_6 : BitVec 32 := 128#32
  let v20 : BitVec 32 := Scalar.muli c1_i32 c128_i32_6
  v20
def k0_mult3 : BitVec 32 :=
  let c2_i32 : BitVec 32 := 2#32
  let c128_i32_14 : BitVec 32 := 128#32
  let v39 : BitVec 32 := Scalar.muli c2_i32 c128_i32_14
  v39
def k0_mult4 : BitVec 32 :=
  let c3_i32 : BitVec 32 := 3#32
  let c128_i32_22 : BitVec 32 := 128#32
  let v58 : BitVec 32 := Scalar.muli c3_i32 c128_i32_22
  v58
def k0_mult5 : BitVec 32 :=
  let c4_i32 : BitVec 32 := 4#32
  let c128_i32_30 : BitVec 32 := 128#32
  let v77 : BitVec 32 := Scalar.muli c4_i32 c128_i32_30
  v77
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x640x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x10240 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S26x10240 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x26 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bcast_S_S32x617 : S_.BroadcastsInDim S32x617 (![] : Fin 0 → Fin S32x617.rank)
  pads_S32x617_S32x640_000_0230 : S32x617.Pads (![0, 0] : Fin 2 → Nat) ![0, 23] ![0, 0] S32x640
  h_S_ : 0 < S_.numel
  bcast_S32x640_S32x640x1_0_1 : S32x640.BroadcastsInDim S32x640x1 (![0, 1] : Fin 2 → Fin S32x640x1.rank)
  bcast_S128_S1x1x128_2 : S128.BroadcastsInDim S1x1x128 (![2] : Fin 1 → Fin S1x1x128.rank)
  bcast_S32x640x1_S32x640x128_0_1_2 : S32x640x1.BroadcastsInDim S32x640x128 (![0, 1, 2] : Fin 3 → Fin S32x640x128.rank)
  bcast_S1x1x128_S32x640x128_0_1_2 : S1x1x128.BroadcastsInDim S32x640x128 (![0, 1, 2] : Fin 3 → Fin S32x640x128.rank)
  pads_S617x10000_S640x10240_0230_02400 : S617x10000.Pads (![0, 0] : Fin 2 → Nat) ![23, 240] ![0, 0] S640x10240
  bitsLt_bf16_f32 : FTy.bits .bf16 < FTy.bits .f32
  pads_S100x10000_S128x10240_0280_02400 : S100x10000.Pads (![0, 0] : Fin 2 → Nat) ![28, 240] ![0, 0] S128x10240
  pads_S26x10000_S26x10240_000_02400 : S26x10000.Pads (![0, 0] : Fin 2 → Nat) ![0, 240] ![0, 0] S26x10240
  h_S32x128x128 : 0 < S32x128x128.numel
  shapeCasts_S32x128x128_S32x128x128 : S32x128x128.ShapeCasts S32x128x128
  shapeCasts_S32x128x128_S4096x128 : S32x128x128.ShapeCasts S4096x128
  inb_S128x640_S128x640_0_0 : ∀ a, (![0, 0] : Fin 2 → Nat) a + S128x640.size a ≤ S128x640.size a
  h_S128x640 : 0 < S128x640.numel
  shapeCasts_S128x640_S128x640 : S128x640.ShapeCasts S128x640
  shapeCasts_S4096x640_S32x128x640 : S4096x640.ShapeCasts S32x128x640
  shapeCasts_S128x640_S1x128x640 : S128x640.ShapeCasts S1x128x640
  broadcasts_S1x128x640_S32x128x640 : S1x128x640.Broadcasts S32x128x640
  reduces_S32x128x640_S32x640 : S32x128x640.Reduces [1] S32x640
  inb_S32x640_S32x640_0_0 : ∀ a, (![0, 0] : Fin 2 → Nat) a + S32x640.size a ≤ S32x640.size a
  h_S32x640 : 0 < S32x640.numel
  inb_S32x10240_S32x10240_0_0 : ∀ a, (![0, 0] : Fin 2 → Nat) a + S32x10240.size a ≤ S32x10240.size a
  h_S32x10240 : 0 < S32x10240.numel
  shapeCasts_S32x10240_S32x10240 : S32x10240.ShapeCasts S32x10240
  inb_S26x10240_S26x10240_0_0 : ∀ a, (![0, 0] : Fin 2 → Nat) a + S26x10240.size a ≤ S26x10240.size a
  h_S26x10240 : 0 < S26x10240.numel
  shapeCasts_S26x10240_S26x10240 : S26x10240.ShapeCasts S26x10240
  inb_S32x26_S32x26_0_0 : ∀ a, (![0, 0] : Fin 2 → Nat) a + S32x26.size a ≤ S32x26.size a
  h_S32x26 : 0 < S32x26.numel
  dot_S4096x128_S128x640_S4096x640_1_0_0_1_n_n_wf : DotDims.WF S4096x128 S128x640 S4096x640 [1] [0] [0] [1] [] []
  dot_S32x10240_S26x10240_S32x26_1_1_0_0_n_n_wf : DotDims.WF S32x10240 S26x10240 S32x26 [1] [1] [0] [0] [] []
  hrank0 : 0 < grid0.rank
  k0_mult1_dvd : 128 ∣ k0_mult1.toNat
  k0_off1_inb : ∀ (r : Fin 5), ∀ a, (k0_off1 (BitVec.ofNat 32 r.val)) a + S32x128x128.size a ≤ S32x640x128.size a
  k0_off2_inb : ∀ (r : Fin 5), ∀ a, (k0_off2 (BitVec.ofNat 32 r.val)) a + S128x640.size a ≤ S640x640.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x640x128.size a ≤ S32x640x128.size a
  hwx0_0 : ∀ i : grid0.Coords, EltTy.bits .bf16 = 32 ∨ (Rect.block (s := S32x640x128) S32x640x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x10240.size a
  hwx0_1 : ∀ i : grid0.Coords, EltTy.bits .bf16 = 32 ∨ (Rect.block (s := S640x10240) S640x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x640.size a ≤ S128x10240.size a
  hwx0_2 : ∀ i : grid0.Coords, EltTy.bits .bf16 = 32 ∨ (Rect.block (s := S128x10240) S128x640.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x640.size a ≤ S32x10240.size a
  hwx0_3 : ∀ i : grid0.Coords, EltTy.bits .f32 = 32 ∨ (Rect.block (s := S32x10240) S32x640.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x10240.size a ≤ S32x10240.size a
  hwx1_0 : ∀ i : grid1.Coords, EltTy.bits .f32 = 32 ∨ (Rect.block (s := S32x10240) S32x10240.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S26x10240.size a ≤ S26x10240.size a
  hwx1_1 : ∀ i : grid1.Coords, EltTy.bits .f32 = 32 ∨ (Rect.block (s := S26x10240) S26x10240.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x26.size a ≤ S32x26.size a
  hwx1_2 : ∀ i : grid1.Coords, EltTy.bits .f32 = 32 ∨ (Rect.block (s := S32x26) S32x26.size (cc1_transform_2 i) (hinb1_2 i)).WholeWords (EltTy.packing .f32)

variable [Facts₀]

def dot_S4096x128_S128x640_S4096x640_1_0_0_1_n_n : DotDims S4096x128 S128x640 S4096x640 where
  lhsContracting := [1]
  rhsContracting := [0]
  lhsNonContracting := [0]
  rhsNonContracting := [1]
  lhsBatch := []
  rhsBatch := []
  wf := dot_S4096x128_S128x640_S4096x640_1_0_0_1_n_n_wf
def dot_S32x10240_S26x10240_S32x26_1_1_0_0_n_n : DotDims S32x10240 S26x10240 S32x26 where
  lhsContracting := [1]
  rhsContracting := [1]
  lhsNonContracting := [0]
  rhsNonContracting := [0]
  lhsBatch := []
  rhsBatch := []
  wf := dot_S32x10240_S26x10240_S32x26_1_1_0_0_n_n_wf

abbrev win0_0 : Pipeline.Window sig grid0 :=
  Pipeline.Window.ofSpec (Memref.whole main_v12) S32x640x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S640x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S32x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S32x10240.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S26x10240.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S32x26.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x617 : Shape := ⟨2, ![32, 617]⟩
abbrev S617x10000 : Shape := ⟨2, ![617, 10000]⟩
abbrev S100x10000 : Shape := ⟨2, ![100, 10000]⟩
abbrev S26x10000 : Shape := ⟨2, ![26, 10000]⟩
abbrev S_ : Shape := ⟨0, ![]⟩
abbrev S32x617x1 : Shape := ⟨3, ![32, 617, 1]⟩
abbrev S32x617x10000 : Shape := ⟨3, ![32, 617, 10000]⟩
abbrev S1x617x10000 : Shape := ⟨3, ![1, 617, 10000]⟩
abbrev S32x10000 : Shape := ⟨2, ![32, 10000]⟩
abbrev S32x26 : Shape := ⟨2, ![32, 26]⟩

abbrev nBuf : Space → Nat
  | .hbm => 40
  | .vmem => 0
  | .smem => 0
  | _ => 0

abbrev bufTy : (tb : Table) → Fin (tcTables nBuf tb) → BufTy
  | .hbm, ⟨0, _⟩ => ⟨S32x617, .f32⟩
  | .hbm, ⟨1, _⟩ => ⟨S617x10000, .f32⟩
  | .hbm, ⟨2, _⟩ => ⟨S100x10000, .f32⟩
  | .hbm, ⟨3, _⟩ => ⟨S26x10000, .f32⟩
  | .hbm, ⟨4, _⟩ => ⟨S_, .f32⟩
  | .hbm, ⟨5, _⟩ => ⟨S32x617, .f32⟩
  | .hbm, ⟨6, _⟩ => ⟨S32x617, .f32⟩
  | .hbm, ⟨7, _⟩ => ⟨S32x617, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S32x617, .f32⟩
  | .hbm, ⟨12, _⟩ => ⟨S32x617, .f32⟩
  | .hbm, ⟨13, _⟩ => ⟨S_, .f32⟩
  | .hbm, ⟨14, _⟩ => ⟨S32x617, .f32⟩
  | .hbm, ⟨15, _⟩ => ⟨S32x617, .f32⟩
  | .hbm, ⟨16, _⟩ => ⟨S32x617, .i32⟩
  | .hbm, ⟨17, _⟩ => ⟨S_, .i32⟩
  | .hbm, ⟨18, _⟩ => ⟨S32x617, .i32⟩
  | .hbm, ⟨19, _⟩ => ⟨S32x617, .i1⟩
  | .hbm, ⟨20, _⟩ => ⟨S_, .i32⟩
  | .hbm, ⟨21, _⟩ => ⟨S32x617, .i32⟩
  | .hbm, ⟨22, _⟩ => ⟨S32x617, .i32⟩
  | .hbm, ⟨23, _⟩ => ⟨S32x617, .i32⟩
  | .hbm, ⟨24, _⟩ => ⟨S32x617x1, .i32⟩
  | .hbm, ⟨25, _⟩ => ⟨S32x617x10000, .f32⟩
  | .hbm, ⟨26, _⟩ => ⟨S1x617x10000, .f32⟩
  | .hbm, ⟨27, _⟩ => ⟨S32x617x10000, .f32⟩
  | .hbm, ⟨28, _⟩ => ⟨S32x617x10000, .f32⟩
  | .hbm, ⟨29, _⟩ => ⟨S_, .f32⟩
  | .hbm, ⟨30, _⟩ => ⟨S32x10000, .f32⟩
  | .hbm, ⟨31, _⟩ => ⟨S_, .f32⟩
  | .hbm, ⟨32, _⟩ => ⟨S32x10000, .f32⟩
  | .hbm, ⟨33, _⟩ => ⟨S32x10000, .i1⟩
  | .hbm, ⟨34, _⟩ => ⟨S_, .f32⟩
  | .hbm, ⟨35, _⟩ => ⟨S_, .f32⟩
  | .hbm, ⟨36, _⟩ => ⟨S32x10000, .f32⟩
  | .hbm, ⟨37, _⟩ => ⟨S32x10000, .f32⟩
  | .hbm, ⟨38, _⟩ => ⟨S32x10000, .f32⟩
  | .hbm, ⟨39, _⟩ => ⟨S32x26, .f32⟩
  | _, _ => ⟨S32x617, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]

class Facts₀ : Prop where
  bcast_S_S32x617 : S_.BroadcastsInDim S32x617 (![] : Fin 0 → Fin S32x617.rank)
  bcast_S32x617_S32x617x1_0_1 : S32x617.BroadcastsInDim S32x617x1 (![0, 1] : Fin 2 → Fin S32x617x1.rank)
  bcast_S617x10000_S1x617x10000_1_2 : S617x10000.BroadcastsInDim S1x617x10000 (![1, 2] : Fin 2 → Fin S1x617x10000.rank)
  bcast_S1x617x10000_S32x617x10000_0_1_2 : S1x617x10000.BroadcastsInDim S32x617x10000 (![0, 1, 2] : Fin 3 → Fin S32x617x10000.rank)
  reducesTo_S32x617x10000_S32x10000_d1 : S32x617x10000.ReducesTo [1] S32x10000
  h_S_ : 0 < S_.numel
  bcast_S_S32x10000 : S_.BroadcastsInDim S32x10000 (![] : Fin 0 → Fin S32x10000.rank)
  gather_S100x10000_S32x617x1_S32x617x10000_2_0_n_n_0_2_110000_wf : GatherDims.WF S100x10000 S32x617x1 S32x617x10000 [2] [0] [] [0] [] 2 ![1, 10000]
  dot_S32x10000_S26x10000_S32x26_1_1_0_0_n_n_wf : DotDims.WF S32x10000 S26x10000 S32x26 [1] [1] [0] [0] [] []

variable [Facts₀]

def gather_S100x10000_S32x617x1_S32x617x10000_2_0_n_n_0_2_110000 : GatherDims S100x10000 S32x617x1 S32x617x10000 where
  offsetDims := [2]
  collapsedSliceDims := [0]
  operandBatchingDims := []
  startIndicesBatchingDims := []
  startIndexMap := [0]
  indexVectorDim := 2
  sliceSizes := ![1, 10000]
  wf := gather_S100x10000_S32x617x1_S32x617x10000_2_0_n_n_0_2_110000_wf
def dot_S32x10000_S26x10000_S32x26_1_1_0_0_n_n : DotDims S32x10000 S26x10000 S32x26 where
  lhsContracting := [1]
  rhsContracting := [1]
  lhsNonContracting := [0]
  rhsNonContracting := [0]
  lhsBatch := []
  rhsBatch := []
  wf := dot_S32x10000_S26x10000_S32x26_1_1_0_0_n_n_wf

class Facts : Prop extends Facts₀ where

variable [Facts]
-- ==== Proof.Region0Body.lean ====
/-
  What one grid point of the first kernel leaves in its output block, as a pure function of the three input blocks:
  the accumulator starts at zero and takes, tile by tile, five tiles of 128 features each: the tile's rows of the
  one-hot block and of the identity-weight block, and the whole level block.
-/
import proofs.«163554_j36850819399702_1_alg».proof.Proof.Gen.KernelIdeal.Frame
import Idealize.ShloMosaic.Lib.Pipeline.Value

set_option maxRecDepth 16384

noncomputable section

namespace Cert.Hdc.Body0

open Idealize.ShloMosaic Idealize.ShloMosaic.TcCoe Idealize.ShloMosaic.Tactic Idealize.SL.Sem Cert.KernelIdeal Cert.KernelIdeal.Gen

variable {F : FTy → Type} [FloatOps F]

theorem zeros2 : (![0, 0] : Fin 2 → Nat) = fun _ => 0 := funext fun a => by fin_cases a <;> rfl

/-- Tile `k`'s rows of the one-hot block: features `128 k … 128 k + 127`, every sample and lane. -/
abbrev ohRect0 : Rect S32x640x128 := Rect.unit ![0, 0, 0] S32x128x128.size (by decide)
abbrev ohRect1 : Rect S32x640x128 := Rect.unit ![0, 128, 0] S32x128x128.size (by decide)
abbrev ohRect2 : Rect S32x640x128 := Rect.unit ![0, 256, 0] S32x128x128.size (by decide)
abbrev ohRect3 : Rect S32x640x128 := Rect.unit ![0, 384, 0] S32x128x128.size (by decide)
abbrev ohRect4 : Rect S32x640x128 := Rect.unit ![0, 512, 0] S32x128x128.size (by decide)
/-- Tile `k`'s rows of the identity-weight block. -/
abbrev iwRect0 : Rect S640x640 := Rect.unit ![0, 0] S128x640.size (by decide)
abbrev iwRect1 : Rect S640x640 := Rect.unit ![128, 0] S128x640.size (by decide)
abbrev iwRect2 : Rect S640x640 := Rect.unit ![256, 0] S128x640.size (by decide)
abbrev iwRect3 : Rect S640x640 := Rect.unit ![384, 0] S128x640.size (by decide)
abbrev iwRect4 : Rect S640x640 := Rect.unit ![512, 0] S128x640.size (by decide)

/-- The output block after the body, from the one-hot block `x0`, the identity-weight block `x1` and the level
    block `x2`: the three payloads of the unrolled loop composed. -/
def bodyVal (x0 : Vec F S32x640x128 .bf16) (x1 : Vec F S640x640 .bf16) (x2 : Vec F S128x640 .bf16) : Vec F S32x640 .f32 :=
  k0_pay1
    (k0_pay3
      (k0_pay2 (View.ld x0 ohRect0) x2 (View.ld x1 iwRect0) (View.ld x0 ohRect1) x2 (View.ld x1 iwRect1))
      (View.ld x0 ohRect2) x2 (View.ld x1 iwRect2) (View.ld x0 ohRect3) x2 (View.ld x1 iwRect3))
    (View.ld x0 ohRect4) x2 (View.ld x1 iwRect4)

/-- The run's one store, read back, is that function of the input blocks. -/
theorem out0_eq (c : Dev nD) (i : grid0.Coords) (arg1 : Memref sig .tc .vmem S32x640x128 .bf16) (harg1 : arg1.IsWhole) (arg2 : Memref sig .tc .vmem S640x640 .bf16) (harg2 : arg2.IsWhole) (arg3 : Memref sig .tc .vmem S128x640 .bf16) (harg3 : arg3.IsWhole) (arg4 : Memref sig .tc .vmem S32x640 .f32) (harg4 : arg4.IsWhole)
    (x0 : Vec F S32x640x128 .bf16) (x1 : Vec F S640x640 .bf16) (x2 : Vec F S128x640 .bf16) :
    out0_A_3 c i arg1 harg1 arg2 harg2 arg3 harg3 arg4 harg4 x0 x1 x2 = bodyVal x0 x1 x2 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero zeros2]
  simp only [View.readAt_eq_ld, harg1.read_unread, harg2.read_unread, harg3.read_unread, View.ld_unit_zero (S := S128x640) zeros2]
  rfl

end Cert.Hdc.Body0

end
-- ==== Proof.Region0Array.lean ====
/-
  The first kernel's output array after its sixteen grid points. Point `t` owns the 640 dimensions
  `640 t … 640 t + 639`: it reads the whole one-hot array and those columns of the identity-weight and level
  arrays, and writes those columns of the bundle array. So entry `(b, d)` of the bundle array is the body's value of
  the one-hot array and of the column blocks `d / 640`, at `(b, d mod 640)`.
-/
import proofs.«163554_j36850819399702_1_alg».proof.Proof.Region0Body
import Idealize.ShloMosaic.Lib.ValueIdx

set_option maxRecDepth 16384

noncomputable section

namespace Cert.Hdc.Region0

open Idealize.ShloMosaic Idealize.ShloMosaic.TcCoe Idealize.SL.Sem Cert.KernelIdeal Cert.KernelIdeal.Gen Cert.Hdc.Body0
open Idealize.ShloMosaic.Pipeline (Dat)

variable {F : FTy → Type} [FloatOps F]
variable (V : (c : Dev nD) → (b : Ref sig .tc) → Buf (Elt F) ((c : Thread nD τ).loc b))

/-- The printed index maps over the sixteen points: the one-hot window stays at block zero; the other three move
    along the dimension axis with the point. -/
theorem index_facts : ∀ t : Fin cfg0.N, win0_0.index t (0 : Fin 3) = 0 ∧ win0_0.index t (1 : Fin 3) = 0 ∧ win0_0.index t (2 : Fin 3) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Columns `640 t … 640 t + 639` of the padded identity weights, as a block. -/
def iwBlock (c : Dev nD) (t : Fin 16) : Vec F S640x640 .bf16 :=
  fun y => V c main_v14 (fun a => match a with
    | ⟨0, _⟩ => ⟨(y 0).val, (y 0).isLt⟩
    | ⟨1, _⟩ => ⟨640 * t.val + (y 1).val, by have h : (y 1).val < 640 := (y 1).isLt; have := t.isLt; show 640 * t.val + (y 1).val < 10240; omega⟩)

/-- Columns `640 t … 640 t + 639` of the padded level table, as a block. -/
def lvBlock (c : Dev nD) (t : Fin 16) : Vec F S128x640 .bf16 :=
  fun y => V c main_v16 (fun a => match a with
    | ⟨0, _⟩ => ⟨(y 0).val, (y 0).isLt⟩
    | ⟨1, _⟩ => ⟨640 * t.val + (y 1).val, by have h : (y 1).val < 640 := (y 1).isLt; have := t.isLt; show 640 * t.val + (y 1).val < 10240; omega⟩)

theorem N16 : cfg0.N = 16 := N_0

/-- The one-hot window's block at every point is the whole array. -/
theorem iblk_oh (c : Dev nD) (t : Fin cfg0.N) : iblk0 V c 0 t = V c main_v12 := by
  obtain ⟨e0, e1, e2, -, -, -, -, -, -⟩ := index_facts t
  funext y
  show V c main_v12 (((cfg0.win 0).blk t).view.emb y) = V c main_v12 y
  refine congrArg (V c main_v12) (funext fun a => Fin.ext ?_)
  match a with
  | ⟨0, _⟩ => show win0_0.index t (0 : Fin 3) * 32 + 1 * (y 0).val = (y 0).val; omega
  | ⟨1, _⟩ => show win0_0.index t (1 : Fin 3) * 640 + 1 * (y 1).val = (y 1).val; omega
  | ⟨2, _⟩ => show win0_0.index t (2 : Fin 3) * 128 + 1 * (y 2).val = (y 2).val; omega

/-- The identity-weight window's block at point `t` is its column block `t`. -/
theorem iblk_iw (c : Dev nD) (t : Fin cfg0.N) : iblk0 V c 1 t = iwBlock V c (t.cast N16) := by
  obtain ⟨-, -, -, e0, e1, -, -, -, -⟩ := index_facts t
  funext y
  show V c main_v14 (((cfg0.win 1).blk t).view.emb y) = V c main_v14 _
  refine congrArg (V c main_v14) (funext fun a => Fin.ext ?_)
  match a with
  | ⟨0, _⟩ => show win0_1.index t (0 : Fin 2) * 640 + 1 * (y 0).val = (y 0).val; omega
  | ⟨1, _⟩ => show win0_1.index t (1 : Fin 2) * 640 + 1 * (y 1).val = 640 * t.val + (y 1).val; omega

/-- The level window's block at point `t` is its column block `t`. -/
theorem iblk_lv (c : Dev nD) (t : Fin cfg0.N) : iblk0 V c 2 t = lvBlock V c (t.cast N16) := by
  obtain ⟨-, -, -, -, -, e0, e1, -, -⟩ := index_facts t
  funext y
  show V c main_v16 (((cfg0.win 2).blk t).view.emb y) = V c main_v16 _
  refine congrArg (V c main_v16) (funext fun a => Fin.ext ?_)
  match a with
  | ⟨0, _⟩ => show win0_2.index t (0 : Fin 2) * 128 + 1 * (y 0).val = (y 0).val; omega
  | ⟨1, _⟩ => show win0_2.index t (1 : Fin 2) * 640 + 1 * (y 1).val = 640 * t.val + (y 1).val; omega

/-- The bundle array the region leaves, entry by entry. -/
def bundleArr (c : Dev nD) : S32x10240.Idx → Elt F .f32 := fun i =>
  bodyVal (V c main_v12)
    (iwBlock V c ⟨(i 1).val / 640, by have h : (i 1).val < 10240 := (i 1).isLt; omega⟩)
    (lvBlock V c ⟨(i 1).val / 640, by have h : (i 1).val < 10240 := (i 1).isLt; omega⟩)
    (fun a => match a with
      | ⟨0, _⟩ => ⟨(i 0).val, (i 0).isLt⟩
      | ⟨1, _⟩ => ⟨(i 1).val % 640, Nat.mod_lt _ (by decide)⟩)

/-- The bundle array at sample `b`, dimension `d`: the body at the column blocks `d / 640`, at `(b, d mod 640)`. -/
theorem bundleArr_ix (c : Dev nD) (b : Fin 32) (d : Fin 10240) :
    bundleArr V c (Idealize.ShloMosaic.ValueIdx.ix2 b d)
      = bodyVal (V c main_v12) (iwBlock V c ⟨d.val / 640, by have := d.isLt; omega⟩) (lvBlock V c ⟨d.val / 640, by have := d.isLt; omega⟩)
          (Idealize.ShloMosaic.ValueIdx.ix2 b ⟨d.val % 640, Nat.mod_lt _ (by decide)⟩) := by
  unfold bundleArr
  exact congrArg (bodyVal (V c main_v12) (iwBlock V c ⟨d.val / 640, by have := d.isLt; omega⟩) (lvBlock V c ⟨d.val / 640, by have := d.isLt; omega⟩))
    (funext fun a => by match a with | ⟨0, _⟩ => rfl | ⟨1, _⟩ => rfl)

/-- What point `t` writes back is its block of the bundle array. -/
theorem flushed_eq (c : Dev nD) (t : Fin cfg0.N) :
    (dat0 V c).flushed 3 t = ((cfg0.win 3).blk t).view.read (Elt F) (bundleArr V c) := by
  show (cfg0.win 3).cut (grid0.coords t) ((dat0 V c).after 3 t) = _
  rw [after0_3]
  unfold outsAt0
  rw [out0_eq, iblk_oh, iblk_iw, iblk_lv]
  obtain ⟨-, -, -, -, -, -, -, e0, e1⟩ := index_facts t
  have ht : t.val < 16 := N16 ▸ t.isLt
  funext j
  have hj0 : (j 0).val < 32 := (j 0).isLt
  have hj1 : (j 1).val < 640 := (j 1).isLt
  have h0 : ((((cfg0.win 3).blk t).view.emb j) 0).val = (j 0).val := by
    show win0_3.index t (0 : Fin 2) * 32 + 1 * (j 0).val = (j 0).val; omega
  have h1 : ((((cfg0.win 3).blk t).view.emb j) 1).val = 640 * t.val + (j 1).val := by
    show win0_3.index t (1 : Fin 2) * 640 + 1 * (j 1).val = 640 * t.val + (j 1).val; omega
  show bodyVal (V c main_v12) (iwBlock V c (t.cast N16)) (lvBlock V c (t.cast N16)) j = bundleArr V c (((cfg0.win 3).blk t).view.emb j)
  unfold bundleArr
  have hq : (640 * t.val + (j 1).val) / 640 = t.val := by omega
  have hr : (640 * t.val + (j 1).val) % 640 = (j 1).val := by omega
  have et : (⟨((((cfg0.win 3).blk t).view.emb j) 1).val / 640, by have h : ((((cfg0.win 3).blk t).view.emb j) 1).val < 10240 := ((((cfg0.win 3).blk t).view.emb j) 1).isLt; omega⟩ : Fin 16) = t.cast N16 :=
    Fin.ext (by show ((((cfg0.win 3).blk t).view.emb j) 1).val / 640 = t.val; rw [h1, hq])
  rw [et]
  refine congrArg (bodyVal (V c main_v12) (iwBlock V c (t.cast N16)) (lvBlock V c (t.cast N16))) (funext fun a => Fin.ext ?_)
  match a with
  | ⟨0, _⟩ => exact h0.symm
  | ⟨1, _⟩ => show (j 1).val = ((((cfg0.win 3).blk t).view.emb j) 1).val % 640; rw [h1, hr]

/-- An index of the bundle array is in point `t`'s block iff each coordinate is in the block's range. -/
theorem mem_blk (t : Fin cfg0.N) (i : S32x10240.Idx) :
    i ∈ ((cfg0.win 3).blk t).view.set ↔ ∀ a : Fin 2, win0_3.index t a * S32x640.size a ≤ (i a).val ∧ (i a).val < win0_3.index t a * S32x640.size a + S32x640.size a := by
  show i ∈ ((View.whole main_v18).slice (win0_3.rect t)).set ↔ _
  rw [View.set_slice_whole, Rect.mem_set_unit]
  exact Iff.rfl

/-- The bundle array after the region. -/
theorem final (c : Dev nD) : (dat0 V c).arrAt 3 cfg0.N = bundleArr V c := by
  refine (dat0 V c).arrAt_eq_of_cover 3 _ (fun t _ => flushed_eq V c t) fun i => ?_
  have hi0 : (i 0).val < 32 := (i 0).isLt
  have hi1 : (i 1).val < 10240 := (i 1).isLt
  let t : Fin cfg0.N := ⟨(i 1).val / 640, by rw [N16]; omega⟩
  refine ⟨t, flush0_3 t, ?_⟩
  rw [mem_blk]
  obtain ⟨-, -, -, -, -, -, -, e0, e1⟩ := index_facts t
  have ht : t.val = (i 1).val / 640 := rfl
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 640 ≤ (i 1).val ∧ (i 1).val < win0_3.index t (1 : Fin 2) * 640 + 640; omega

end Cert.Hdc.Region0

end
-- ==== Proof.Region1.lean ====
/-
  The second kernel runs at one grid point on whole arrays: its output array ends at the body's value of the two
  input arrays as the region finds them.
-/
import proofs.«163554_j36850819399702_1_alg».proof.Proof.Gen.KernelIdeal.Frame
import Idealize.ShloMosaic.Lib.Pipeline.Value

set_option maxRecDepth 16384

noncomputable section

namespace Cert.Hdc.Region1

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- The one grid point's blocks all sit at block index zero on both axes. -/
theorem index_zero : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The bundle array's one block is the whole array. -/
theorem iblk_ms (c : Dev nD) (t : Fin cfg1.N) : iblk1 V c 0 t = V c main_v18 := by
  obtain ⟨e0, e1, -, -, -, -⟩ := index_zero t
  funext y
  show V c main_v18 (((cfg1.win 0).blk t).view.emb y) = V c main_v18 y
  refine congrArg (V c main_v18) (funext fun a => Fin.ext ?_)
  match a with
  | ⟨0, _⟩ => show win1_0.index t (0 : Fin 2) * 32 + 1 * (y 0).val = (y 0).val; omega
  | ⟨1, _⟩ => show win1_0.index t (1 : Fin 2) * 10240 + 1 * (y 1).val = (y 1).val; omega

/-- The class-weight array's one block is the whole array. -/
theorem iblk_cw (c : Dev nD) (t : Fin cfg1.N) : iblk1 V c 1 t = V c main_v17 := by
  obtain ⟨-, -, e0, e1, -, -⟩ := index_zero t
  funext y
  show V c main_v17 (((cfg1.win 1).blk t).view.emb y) = V c main_v17 y
  refine congrArg (V c main_v17) (funext fun a => Fin.ext ?_)
  match a with
  | ⟨0, _⟩ => show win1_1.index t (0 : Fin 2) * 26 + 1 * (y 0).val = (y 0).val; omega
  | ⟨1, _⟩ => show win1_1.index t (1 : Fin 2) * 10240 + 1 * (y 1).val = (y 1).val; omega

/-- What the point writes back is the body's value of the whole input arrays, read through the output's one block. -/
theorem flushed_eq (c : Dev nD) (t : Fin cfg1.N) :
    (dat1 V c).flushed 2 t = ((cfg1.win 2).blk t).view.read (Elt F) (k1_pay1 (V c main_v18) (V c main_v17)) := by
  show (cfg1.win 2).cut (grid1.coords t) ((dat1 V c).after 2 t) = _
  rw [after1_2]
  unfold out1_2
  rw [View.canon_unit_zero zeros2]
  simp only [View.ld_unit_zero (S := S32x10240) zeros2, View.ld_unit_zero (S := S26x10240) zeros2]
  rw [iblk_ms, iblk_cw]
  obtain ⟨-, -, -, -, e0, e1⟩ := index_zero t
  funext j
  show k1_pay1 (V c main_v18) (V c main_v17) j = k1_pay1 (V c main_v18) (V c main_v17) (((cfg1.win 2).blk t).view.emb j)
  refine congrArg (k1_pay1 (V c main_v18) (V c main_v17)) (funext fun a => Fin.ext ?_)
  match a with
  | ⟨0, _⟩ => show (j 0).val = win1_2.index t (0 : Fin 2) * 32 + 1 * (j 0).val; omega
  | ⟨1, _⟩ => show (j 1).val = win1_2.index t (1 : Fin 2) * 26 + 1 * (j 1).val; omega

/-- An index of the output array is in the point's block iff each coordinate is in the block's range. -/
theorem mem_blk (t : Fin cfg1.N) (i : S32x26.Idx) :
    i ∈ ((cfg1.win 2).blk t).view.set ↔ ∀ a : Fin 2, win1_2.index t a * S32x26.size a ≤ (i a).val ∧ (i a).val < win1_2.index t a * S32x26.size a + S32x26.size a := by
  show i ∈ ((View.whole main_v19).slice (win1_2.rect t)).set ↔ _
  rw [View.set_slice_whole, Rect.mem_set_unit]
  exact Iff.rfl

/-- The output array after the region: the body's value of the two input arrays. -/
theorem final (c : Dev nD) : (dat1 V c).arrAt 2 cfg1.N = k1_pay1 (V c main_v18) (V c main_v17) := by
  refine (dat1 V c).arrAt_eq_of_cover 2 _ (fun t _ => flushed_eq V c t) fun i => ?_
  refine ⟨t1_0, flush1_2 t1_0, ?_⟩
  rw [mem_blk]
  obtain ⟨-, -, -, -, e0, e1⟩ := index_zero t1_0
  intro a
  match a with
  | ⟨0, _⟩ => show win1_2.index t1_0 (0 : Fin 2) * 32 ≤ (i 0).val ∧ (i 0).val < win1_2.index t1_0 (0 : Fin 2) * 32 + 32; have := (i 0).isLt; have h : (i 0).val < 32 := this; omega
  | ⟨1, _⟩ => show win1_2.index t1_0 (1 : Fin 2) * 26 ≤ (i 1).val ∧ (i 1).val < win1_2.index t1_0 (1 : Fin 2) * 26 + 26; have := (i 1).isLt; have h : (i 1).val < 26 := this; omega

end Cert.Hdc.Region1

end
-- ==== Proof.Spec.lean ====
/-
  The hyperdimensional classifier both programs compute, as plain sums over the extended reals.

  A feature value `v` is quantised to a LEVEL WORD: `v · 99` rounded to the nearest integer (ties to even), clipped to
  `[0, 99]` and converted to a signed 32-bit word; whatever `v` is (an infinity included) the clip puts the word's
  signed value in `[0, 100)`, so it names a row of the level table. A sample's BUNDLE at dimension `d` is the sum
  over the 617 features of the feature's identity weight times its level's row entry; the bundle is hard-quantised
  to a sign (strictly positive ↦ the word `1.0`, otherwise the word `-1.0`), and the LOGIT of class `c` is the sum over
  the 10000 dimensions of the sign times the class weight.

  The kernel computes the bundle by a ONE-HOT contraction against the level table padded to 128 rows, over 640
  features (the 23 extra ones have level word 0 and identity weight 0) in five tiles of 128, and over 10240
  dimensions (the 240 extra ones have every weight 0): the lemmas below say these paddings add only zeros.
-/
import Idealize.ShloMosaic.PureOps.Ideal
import Idealize.ShloMosaic.PureOps.Ideal.Laws
import Idealize.ShloMosaic.Lib.ValueIdx

noncomputable section

open scoped BigOperators

namespace Cert.Hdc

open Idealize.ShloMosaic Idealize.ShloMosaic.ValueIdx

/-- The level word of one feature value: `fptosi (min 99 (max 0 (roundeven (v · 99))))`, spelled with the ideal
    instance's operations so that both programs' host chains read to it at an index by unfolding. -/
def lvlWord (v : EReal) : BitVec 32 :=
  FloatOps.fptosi (F := Ideal) (φ := .f32) 32
    (FloatOps.minimumf (F := Ideal) (φ := .f32) (FloatOps.sitofp (F := Ideal) .f32 (99#32 : BitVec 32))
      (FloatOps.maximumf (F := Ideal) (φ := .f32) (FloatOps.sitofp (F := Ideal) .f32 (0#32 : BitVec 32))
        (FloatOps.hostUnary (F := Ideal) (φ := .f32) .roundeven
          (FloatOps.mulf (F := Ideal) (φ := .f32) v (FloatOps.ofBits (F := Ideal) .f32 0x42C60000#32)))))

/-- The clipped value min 99 (max 0 z) lies in [0, 99] whatever z is, so it is a real number whose floor is
    in [0, 99]; the conversion to a signed 32-bit word does not wrap there. -/
private theorem clip_range (z : EReal) :
    0 ≤ (Ideal.fptosi 32 (min (((99#32 : BitVec 32).toInt : ℝ) : EReal)
        (max (((0#32 : BitVec 32).toInt : ℝ) : EReal) z))).toInt ∧
    (Ideal.fptosi 32 (min (((99#32 : BitVec 32).toInt : ℝ) : EReal)
        (max (((0#32 : BitVec 32).toInt : ℝ) : EReal) z))).toInt < 100 := by
  have e99 : (99#32 : BitVec 32).toInt = 99 := by decide
  have e0 : (0#32 : BitVec 32).toInt = 0 := by decide
  rw [e99, e0]
  have h0 : ((0 : ℝ) : EReal) ≤ min (((99 : ℤ) : ℝ) : EReal) (max (((0 : ℤ) : ℝ) : EReal) z) := by
    apply le_min
    · exact_mod_cast (by norm_num : (0 : ℝ) ≤ 99)
    · exact le_trans (by exact_mod_cast le_refl (0 : ℝ)) (le_max_left _ _)
  have h1 : min (((99 : ℤ) : ℝ) : EReal) (max (((0 : ℤ) : ℝ) : EReal) z) ≤ ((99 : ℝ) : EReal) := by
    exact le_trans (min_le_left _ _) (by exact_mod_cast le_refl (99 : ℝ))
  generalize min (((99 : ℤ) : ℝ) : EReal) (max (((0 : ℤ) : ℝ) : EReal) z) = y at h0 h1
  induction y using EReal.rec with
  | bot => exact absurd h0 (by simp)
  | top => exact absurd h1 (by simp)
  | coe r =>
    have hr0 : (0 : ℝ) ≤ r := by exact_mod_cast h0
    have hr1 : r ≤ 99 := by exact_mod_cast h1
    have hf0 : 0 ≤ ⌊r⌋ := Int.floor_nonneg.mpr hr0
    have hf1 : ⌊r⌋ ≤ 99 := by
      have : ((⌊r⌋ : ℤ) : ℝ) ≤ 99 := (Int.floor_le r).trans hr1
      exact_mod_cast this
    simp only [Ideal.fptosi, Ideal.toIntClamped_coe, if_pos hr0, BitVec.toInt_ofInt]
    generalize ⌊r⌋ = n at hf0 hf1
    norm_num
    have hclip : max (-2147483648) (min 2147483647 n) = n := by omega
    rw [hclip, Int.bmod_eq_of_le_mul_two (by omega) (by omega)]
    omega

/-- A sum over Fin m whose terms vanish from n on is the sum of its first n terms. -/
private theorem sum_pad {n m : Nat} (hnm : n ≤ m) (g : Fin m → EReal) (hz : ∀ s : Fin m, n ≤ s.val → g s = 0) :
    ∑ s : Fin m, g s = ∑ s : Fin n, g (Fin.castLE hnm s) := by
  obtain ⟨k, rfl⟩ := Nat.exists_eq_add_of_le hnm
  rw [Fin.sum_univ_add]
  have hzero : ∑ i : Fin k, g (Fin.natAdd n i) = 0 :=
    Finset.sum_eq_zero (fun i _ => hz _ (by simp))
  rw [hzero, add_zero]
  rfl

/-- The clip bounds the level word: its signed value is a row number of the 100-row level table. -/
theorem lvlWord_range (v : EReal) : 0 ≤ (lvlWord v).toInt ∧ (lvlWord v).toInt < 100 := by
  unfold lvlWord
  exact clip_range _

/-- The level of a feature value, as a row of the level table. -/
def lvlIx (v : EReal) : Fin 100 := ⟨(lvlWord v).toInt.toNat, by have := lvlWord_range v; omega⟩

/-- Hard quantisation: the word `1.0` where the argument is strictly positive, the word `-1.0` elsewhere. -/
def quant (y : EReal) : EReal :=
  Scalar.select (FloatOps.cmpf (F := Ideal) (φ := .f32) .ogt y (FloatOps.ofBits (F := Ideal) .f32 0x00000000#32))
    (FloatOps.ofBits (F := Ideal) .f32 0x3F800000#32) (FloatOps.ofBits (F := Ideal) .f32 0xBF800000#32)

/-- Sample `b`'s bundle at dimension `d`. -/
def bundle (x : (⟨2, ![32, 617]⟩ : Shape).Idx → EReal) (idw : (⟨2, ![617, 10000]⟩ : Shape).Idx → EReal)
    (lvl : (⟨2, ![100, 10000]⟩ : Shape).Idx → EReal) (b : Fin 32) (d : Fin 10000) : EReal :=
  ∑ s : Fin 617, idw (ix2 s d) * lvl (ix2 (lvlIx (x (ix2 b s))) d)

/-- Sample `b`'s logit for class `c`. -/
def logits (x : (⟨2, ![32, 617]⟩ : Shape).Idx → EReal) (idw : (⟨2, ![617, 10000]⟩ : Shape).Idx → EReal)
    (lvl : (⟨2, ![100, 10000]⟩ : Shape).Idx → EReal) (cls : (⟨2, ![26, 10000]⟩ : Shape).Idx → EReal)
    (b : Fin 32) (c : Fin 26) : EReal :=
  ∑ d : Fin 10000, quant (bundle x idw lvl b d) * cls (ix2 c d)

/-! ## The kernel's padded arrangement -/

/-- The level word at feature `s` of the feature axis padded to 640: the padding's word is `0`. -/
def padWord (x : (⟨2, ![32, 617]⟩ : Shape).Idx → EReal) (b : Fin 32) (s : Fin 640) : BitVec 32 :=
  if h : s.val < 617 then lvlWord (x (ix2 b ⟨s.val, h⟩)) else 0#32

/-- The identity weights padded with zeros to 640 × 10240. -/
def idwPad (idw : (⟨2, ![617, 10000]⟩ : Shape).Idx → EReal) (s : Fin 640) (d : Fin 10240) : EReal :=
  if h : s.val < 617 ∧ d.val < 10000 then idw (ix2 ⟨s.val, h.1⟩ ⟨d.val, h.2⟩) else 0

/-- The level table padded with zeros to 128 × 10240. -/
def lvlPad (lvl : (⟨2, ![100, 10000]⟩ : Shape).Idx → EReal) (l : Fin 128) (d : Fin 10240) : EReal :=
  if h : l.val < 100 ∧ d.val < 10000 then lvl (ix2 ⟨l.val, h.1⟩ ⟨d.val, h.2⟩) else 0

/-- The class weights padded with zeros to 26 × 10240. -/
def clsPad (cls : (⟨2, ![26, 10000]⟩ : Shape).Idx → EReal) (c : Fin 26) (d : Fin 10240) : EReal :=
  if h : d.val < 10000 then cls (ix2 c ⟨d.val, h⟩) else 0

/-- One entry of the one-hot array: `1` where the level word is the lane number, else `0` (the comparison's bit read
    as an unsigned number). -/
def oneHot (w : BitVec 32) (l : Fin 128) : EReal :=
  (((IntOp.cmpi .eq w (BitVec.ofNat 32 l.val)).toNat : ℝ) : EReal)

/-- The one-hot contraction picks the row the word names (a word in `[0, 128)`). -/
theorem oneHot_contract (w : BitVec 32) (h0 : 0 ≤ w.toInt) (h1 : w.toInt < 128) (L : Fin 128 → EReal) :
    ∑ l : Fin 128, oneHot w l * L l = L ⟨w.toInt.toNat, by omega⟩ := by
  have hw : w.toInt = (w.toNat : ℤ) := by
    have := w.isLt
    rw [BitVec.toInt_eq_toNat_cond] at h0 ⊢
    split at h0 <;> rename_i hc
    · rw [if_pos hc]
    · omega
  have hlt : w.toNat < 128 := by omega
  have key : ∀ l : Fin 128, oneHot w l = if l.val = w.toNat then 1 else 0 := by
    intro l
    have hb : (w == BitVec.ofNat 32 l.val) = decide (l.val = w.toNat) := by
      rw [Bool.eq_iff_iff]
      simp only [beq_iff_eq, decide_eq_true_eq]
      constructor
      · intro h
        rw [h, BitVec.toNat_ofNat]
        have := l.isLt
        omega
      · intro h
        apply BitVec.eq_of_toNat_eq
        rw [h, BitVec.toNat_ofNat]
        have := w.isLt
        omega
    unfold oneHot
    simp only [IntOp.cmpi, hb]
    by_cases h : l.val = w.toNat
    · simp [h]
    · simp [h]
  have hidx : (⟨w.toInt.toNat, by omega⟩ : Fin 128) = ⟨w.toNat, hlt⟩ := by
    apply Fin.ext
    show w.toInt.toNat = w.toNat
    omega
  rw [Finset.sum_eq_single (⟨w.toNat, hlt⟩ : Fin 128), hidx]
  · rw [key, if_pos rfl, one_mul]
  · intro l _ hne
    rw [key, if_neg (fun h => hne (Fin.ext h)), zero_mul]
  · intro h
    exact absurd (Finset.mem_univ _) h

/-- The kernel's padded one-hot bundle is the bundle on the real dimensions and `0` on the padding. -/
theorem padded_bundle (x : (⟨2, ![32, 617]⟩ : Shape).Idx → EReal) (idw : (⟨2, ![617, 10000]⟩ : Shape).Idx → EReal)
    (lvl : (⟨2, ![100, 10000]⟩ : Shape).Idx → EReal) (b : Fin 32) (d : Fin 10240) :
    (∑ s : Fin 640, idwPad idw s d * ∑ l : Fin 128, oneHot (padWord x b s) l * lvlPad lvl l d)
      = if h : d.val < 10000 then bundle x idw lvl b ⟨d.val, h⟩ else 0 := by
  have hpw : ∀ s : Fin 640, 0 ≤ (padWord x b s).toInt ∧ (padWord x b s).toInt < 100 := by
    intro s
    unfold padWord
    split
    · exact lvlWord_range _
    · decide
  by_cases h : d.val < 10000
  · rw [dif_pos h]
    rw [sum_pad (by norm_num : 617 ≤ 640) _ (fun s hs => by
      unfold idwPad
      rw [dif_neg (fun hh => by omega), zero_mul])]
    unfold bundle
    apply Finset.sum_congr rfl
    intro s _
    have hs : (Fin.castLE (by norm_num : 617 ≤ 640) s).val < 617 := s.isLt
    rw [oneHot_contract _ (hpw _).1 (by have := (hpw (Fin.castLE (by norm_num : 617 ≤ 640) s)).2; omega)
      (fun l => lvlPad lvl l d)]
    have hword : padWord x b (Fin.castLE (by norm_num : 617 ≤ 640) s) = lvlWord (x (ix2 b s)) := by
      unfold padWord
      rw [dif_pos hs]
      rfl
    have hrow : (lvlWord (x (ix2 b s))).toInt.toNat < 100 := (lvlIx (x (ix2 b s))).isLt
    congr 1
    · unfold idwPad
      rw [dif_pos ⟨hs, h⟩]
      rfl
    · unfold lvlPad
      simp only [hword]
      rw [dif_pos ⟨hrow, h⟩]
      rfl
  · rw [dif_neg h]
    apply Finset.sum_eq_zero
    intro s _
    unfold idwPad
    rw [dif_neg (fun hh => h hh.2), zero_mul]

/-- The padded dimensions add nothing to a logit: there the class weight is `0`. -/
theorem padded_logits (x : (⟨2, ![32, 617]⟩ : Shape).Idx → EReal) (idw : (⟨2, ![617, 10000]⟩ : Shape).Idx → EReal)
    (lvl : (⟨2, ![100, 10000]⟩ : Shape).Idx → EReal) (cls : (⟨2, ![26, 10000]⟩ : Shape).Idx → EReal)
    (M : Fin 32 → Fin 10240 → EReal)
    (hM : ∀ b d, M b d = if h : d.val < 10000 then bundle x idw lvl b ⟨d.val, h⟩ else 0) (b : Fin 32) (c : Fin 26) :
    ∑ d : Fin 10240, quant (M b d) * clsPad cls c d = logits x idw lvl cls b c := by
  rw [sum_pad (by norm_num : 10000 ≤ 10240) _ (fun d hd => by
    unfold clsPad
    rw [dif_neg (by omega), mul_zero])]
  unfold logits
  apply Finset.sum_congr rfl
  intro d _
  have hd : (Fin.castLE (by norm_num : 10000 ≤ 10240) d).val < 10000 := d.isLt
  rw [hM, dif_pos hd]
  unfold clsPad
  rw [dif_pos hd]
  rfl

/-- Five tiles of 128 features are the 640 features. -/
theorem sum_five_tiles (f : Fin 640 → EReal) :
    ∑ k : Fin 5, ∑ r : Fin 128, f ⟨128 * k.val + r.val, by omega⟩ = ∑ s : Fin 640, f s := by
  have hprod : ∑ k : Fin 5, ∑ r : Fin 128, f ⟨128 * k.val + r.val, by omega⟩
      = ∑ p : Fin 5 × Fin 128, f ⟨128 * p.1.val + p.2.val, by omega⟩ := by
    rw [Fintype.sum_prod_type]
  rw [hprod]
  apply Fintype.sum_equiv (finProdFinEquiv (m := 5) (n := 128))
  intro p
  congr 1
  apply Fin.ext
  show 128 * p.1.val + p.2.val = p.2.val + 128 * p.1.val
  omega

end Cert.Hdc

end
-- ==== Proof.TileValue.lean ====
/-
  One tile of the first kernel's body, and the second kernel's body, read at an index at the ideal instance.
-/
import proofs.«163554_j36850819399702_1_alg».proof.Proof.Gen.KernelIdeal.Skeleton
import proofs.«163554_j36850819399702_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Hdc.Tile

open Idealize.ShloMosaic Idealize.ShloMosaic.ValueIdx Idealize.SL.Sem Cert.KernelIdeal Cert.KernelIdeal.Gen

variable {F : FTy → Type} [FloatOps F]

/-- One tile's contribution: the one-hot tile contracted with the level block, times the identity-weight tile, summed
    over the tile's 128 features. -/
def tileTerm (oh : Vec F S32x128x128 .bf16) (lv : Vec F S128x640 .bf16) (iw : Vec F S128x640 .bf16) : FVec F S32x640 .f32 :=
  multiReduction .add [1] S32x640
    (mulf (broadcastTo S32x128x640 (shapeCast S1x128x640 (extf .f32 (shapeCast S128x640 iw shapeCasts_S128x640_S128x640) bitsLt_bf16_f32) shapeCasts_S128x640_S1x128x640) broadcasts_S1x128x640_S32x128x640)
      (shapeCast S32x128x640 (matmul dot_S4096x128_S128x640_S4096x640_1_0_0_1_n_n none
        (shapeCast S4096x128 (shapeCast S32x128x128 oh shapeCasts_S32x128x128_S32x128x128) shapeCasts_S32x128x128_S4096x128)
        (shapeCast S128x640 lv shapeCasts_S128x640_S128x640) (constant S4096x640 .f32 0x00000000#32)) shapeCasts_S4096x640_S32x128x640))
    0x00000000#32 reduces_S32x128x640_S32x640 (.inl rfl) rfl

theorem pay2_eq (v4 : Vec F S32x128x128 .bf16) (v7 v12 : Vec F S128x640 .bf16) (v23 : Vec F S32x128x128 .bf16) (v26 v31 : Vec F S128x640 .bf16) :
    k0_pay2 v4 v7 v12 v23 v26 v31
      = addf (addf (broadcast S32x640 (Scalar.ofBits .f32 0x00000000#32)) (tileTerm v4 v7 v12)) (tileTerm v23 v26 v31) := rfl

theorem pay3_eq (v38 : FVec F S32x640 .f32) (v42 : Vec F S32x128x128 .bf16) (v45 v50 : Vec F S128x640 .bf16) (v61 : Vec F S32x128x128 .bf16) (v64 v69 : Vec F S128x640 .bf16) :
    k0_pay3 v38 v42 v45 v50 v61 v64 v69 = addf (addf v38 (tileTerm v42 v45 v50)) (tileTerm v61 v64 v69) := rfl

theorem pay1_eq (v76 : FVec F S32x640 .f32) (v80 : Vec F S32x128x128 .bf16) (v83 v88 : Vec F S128x640 .bf16) :
    k0_pay1 v76 v80 v83 v88 = addf v76 (tileTerm v80 v83 v88) := rfl

/-! ## The tile's contraction: rows of the flattened one-hot block against the level block -/

private theorem lhs_tile_0 (i : S4096x640.Idx) (q : dot_S4096x128_S128x640_S4096x640_1_0_0_1_n_n.contr.Idx) :
    (dot_S4096x128_S128x640_S4096x640_1_0_0_1_n_n.lhsIdx i q 0).val = (i 0).val := by
  unfold DotDims.lhsIdx
  rw [dif_neg (show ¬(0 : Fin S4096x128.rank) ∈ dot_S4096x128_S128x640_S4096x640_1_0_0_1_n_n.lhsBatch by decide), dif_pos (show (0 : Fin S4096x128.rank) ∈ dot_S4096x128_S128x640_S4096x640_1_0_0_1_n_n.lhsNonContracting by decide)]
  rfl
private theorem lhs_tile_1 (i : S4096x640.Idx) (q : dot_S4096x128_S128x640_S4096x640_1_0_0_1_n_n.contr.Idx) :
    (dot_S4096x128_S128x640_S4096x640_1_0_0_1_n_n.lhsIdx i q 1).val = (q ⟨0, by decide⟩).val :=
  dot_S4096x128_S128x640_S4096x640_1_0_0_1_n_n.lhsIdx_val_of_single rfl i q
private theorem rhs_tile_0 (i : S4096x640.Idx) (q : dot_S4096x128_S128x640_S4096x640_1_0_0_1_n_n.contr.Idx) :
    (dot_S4096x128_S128x640_S4096x640_1_0_0_1_n_n.rhsIdx i q 0).val = (q ⟨0, by decide⟩).val :=
  dot_S4096x128_S128x640_S4096x640_1_0_0_1_n_n.rhsIdx_val_of_single rfl i q
private theorem rhs_tile_1 (i : S4096x640.Idx) (q : dot_S4096x128_S128x640_S4096x640_1_0_0_1_n_n.contr.Idx) :
    (dot_S4096x128_S128x640_S4096x640_1_0_0_1_n_n.rhsIdx i q 1).val = (i 1).val := by
  unfold DotDims.rhsIdx
  rw [dif_neg (show ¬(1 : Fin S128x640.rank) ∈ dot_S4096x128_S128x640_S4096x640_1_0_0_1_n_n.rhsBatch by decide), dif_pos (show (1 : Fin S128x640.rank) ∈ dot_S4096x128_S128x640_S4096x640_1_0_0_1_n_n.rhsNonContracting by decide)]
  rfl

/-- The tile's matrix product into a zero accumulator at row `p`, column `e`: the sum over the 128 levels. -/
private theorem matmul_tile_apply (L : FVec Ideal S4096x128 .bf16) (R : FVec Ideal S128x640 .bf16) (p : Fin 4096) (e : Fin 640) :
    matmul dot_S4096x128_S128x640_S4096x640_1_0_0_1_n_n none L R (constant (F := Ideal) S4096x640 .f32 0x00000000#32) (ix2 p e)
      = ∑ l : Fin 128, L (ix2 p l) * R (ix2 l e) := by
  simp only [matmul]
  rw [Ideal.matmul_constant_zero_apply, ← Equiv.sum_comp (ValueIdx.contrEquiv1 dot_S4096x128_S128x640_S4096x640_1_0_0_1_n_n 128 rfl rfl).symm]
  refine Finset.sum_congr rfl fun k _ => ?_
  have hk := ValueIdx.contrEquiv1_symm_val dot_S4096x128_S128x640_S4096x640_1_0_0_1_n_n 128 rfl rfl k
  have el : dot_S4096x128_S128x640_S4096x640_1_0_0_1_n_n.lhsIdx (ix2 p e) ((ValueIdx.contrEquiv1 dot_S4096x128_S128x640_S4096x640_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S4096x128_S128x640_S4096x640_1_0_0_1_n_n.rhsIdx (ix2 p e) ((ValueIdx.contrEquiv1 dot_S4096x128_S128x640_S4096x640_1_0_0_1_n_n 128 rfl rfl).symm k) = ix2 k e := funext fun a => Fin.ext (by
    match a with
    | ⟨0, _⟩ => exact (rhs_tile_0 _ _).trans hk
    | ⟨1, _⟩ => exact rhs_tile_1 _ _)
  rw [el, er]

/-! ## The layout steps of a tile read at coordinates -/

/-- The lane sum over the tile's 128 features at sample `b`, dimension `e`. -/
private theorem lift_feature (h : S32x128x640.Reduces [1] S32x640) (b : Fin 32) (e : Fin 640) (k : Fin (S32x128x640.size 1)) :
    h.lift (ix2 b e) k = ix3 b (⟨k.val, k.isLt⟩ : Fin 128) e := by
  funext c; apply Fin.ext
  fin_cases c <;> rfl

private theorem sum_feature (X : FVec Ideal S32x128x640 .f32) (h : S32x128x640.Reduces [1] S32x640) (hφ : FKind.Formats .f32)
    (hacc : (0x00000000#32 : BitVec 32) = FKind.add.neutral .f32 hφ) (b : Fin 32) (e : Fin 640) :
    multiReduction (F := Ideal) .add [1] S32x640 X 0x00000000#32 h hφ hacc (ix2 b e) = ∑ r : Fin 128, X (ix3 b r e) := by
  refine (Ideal.multiReduction_add_single X _ h hφ hacc (ix2 b e)).trans ?_
  exact Finset.sum_congr rfl fun k _ => congrArg X (lift_feature h b e k)

/-- The weight tile with a unit axis in front, repeated over the 32 samples. -/
private theorem bcast_samples {α : Type} (X : S1x128x640.Idx → α) (h : S1x128x640.Broadcasts S32x128x640) (b : Fin 32) (r : Fin 128) (e : Fin 640) :
    broadcastTo S32x128x640 X h (ix3 b r e) = X (ix3 (0 : Fin 1) r e) := by
  refine broadcastTo_apply X h (ix3 b r e) (ix3 (0 : Fin 1) r e) fun ax => ?_
  match ax with
  | ⟨0, _⟩ => rfl
  | ⟨1, _⟩ => rfl
  | ⟨2, _⟩ => rfl

/-- Row `128 b + r` of the flattened product is sample `b`, feature `r`. -/
private theorem cast_rows_out {α : Type} (M : S4096x640.Idx → α) (h : S4096x640.ShapeCasts S32x128x640) (b : Fin 32) (r : Fin 128) (e : Fin 640) :
    shapeCast S32x128x640 M h (ix3 b r e) = M (ix2 (⟨128 * b.val + r.val, by omega⟩ : Fin 4096) e) :=
  shapeCast_apply M h _ _ (by
    rw [Shape.rowMajor_val_two, Shape.rowMajor_val_three]
    show (128 * b.val + r.val) * 640 + e.val = (b.val * 128 + r.val) * 640 + e.val
    omega)

/-- Row `128 b + r` of the flattened one-hot block is sample `b`, feature `r`. -/
private theorem cast_rows_in {α : Type} (X : S32x128x128.Idx → α) (h : S32x128x128.ShapeCasts S4096x128) (b : Fin 32) (r : Fin 128) (l : Fin 128) :
    shapeCast S4096x128 X h (ix2 (⟨128 * b.val + r.val, by omega⟩ : Fin 4096) l) = X (ix3 b r l) :=
  shapeCast_apply X h _ _ (by
    rw [Shape.rowMajor_val_two, Shape.rowMajor_val_three]
    show (b.val * 128 + r.val) * 128 + l.val = (128 * b.val + r.val) * 128 + l.val
    omega)

/-! ## The classifier's contraction: the sign rows against the class weights -/

private theorem lhs_cls_0 (i : S32x26.Idx) (q : dot_S32x10240_S26x10240_S32x26_1_1_0_0_n_n.contr.Idx) :
    (dot_S32x10240_S26x10240_S32x26_1_1_0_0_n_n.lhsIdx i q 0).val = (i 0).val := by
  unfold DotDims.lhsIdx
  rw [dif_neg (show ¬(0 : Fin S32x10240.rank) ∈ dot_S32x10240_S26x10240_S32x26_1_1_0_0_n_n.lhsBatch by decide), dif_pos (show (0 : Fin S32x10240.rank) ∈ dot_S32x10240_S26x10240_S32x26_1_1_0_0_n_n.lhsNonContracting by decide)]
  rfl
private theorem lhs_cls_1 (i : S32x26.Idx) (q : dot_S32x10240_S26x10240_S32x26_1_1_0_0_n_n.contr.Idx) :
    (dot_S32x10240_S26x10240_S32x26_1_1_0_0_n_n.lhsIdx i q 1).val = (q ⟨0, by decide⟩).val :=
  dot_S32x10240_S26x10240_S32x26_1_1_0_0_n_n.lhsIdx_val_of_single rfl i q
private theorem rhs_cls_0 (i : S32x26.Idx) (q : dot_S32x10240_S26x10240_S32x26_1_1_0_0_n_n.contr.Idx) :
    (dot_S32x10240_S26x10240_S32x26_1_1_0_0_n_n.rhsIdx i q 0).val = (i 1).val := by
  unfold DotDims.rhsIdx
  rw [dif_neg (show ¬(0 : Fin S26x10240.rank) ∈ dot_S32x10240_S26x10240_S32x26_1_1_0_0_n_n.rhsBatch by decide), dif_pos (show (0 : Fin S26x10240.rank) ∈ dot_S32x10240_S26x10240_S32x26_1_1_0_0_n_n.rhsNonContracting by decide)]
  rfl
private theorem rhs_cls_1 (i : S32x26.Idx) (q : dot_S32x10240_S26x10240_S32x26_1_1_0_0_n_n.contr.Idx) :
    (dot_S32x10240_S26x10240_S32x26_1_1_0_0_n_n.rhsIdx i q 1).val = (q ⟨0, by decide⟩).val :=
  dot_S32x10240_S26x10240_S32x26_1_1_0_0_n_n.rhsIdx_val_of_single rfl i q

/-- The classifier's matrix product into a zero accumulator at sample `b`, class `k`: the sum over the 10240 dimensions. -/
private theorem matmul_cls_apply (L : FVec Ideal S32x10240 .bf16) (R : FVec Ideal S26x10240 .bf16) (b : Fin 32) (k : Fin 26) :
    matmul dot_S32x10240_S26x10240_S32x26_1_1_0_0_n_n none L R (constant (F := Ideal) S32x26 .f32 0x00000000#32) (ix2 b k)
      = ∑ d : Fin 10240, L (ix2 b d) * R (ix2 k d) := by
  simp only [matmul]
  rw [Ideal.matmul_constant_zero_apply, ← Equiv.sum_comp (ValueIdx.contrEquiv1 dot_S32x10240_S26x10240_S32x26_1_1_0_0_n_n 10240 rfl rfl).symm]
  refine Finset.sum_congr rfl fun d _ => ?_
  have hd := ValueIdx.contrEquiv1_symm_val dot_S32x10240_S26x10240_S32x26_1_1_0_0_n_n 10240 rfl rfl d
  have el : dot_S32x10240_S26x10240_S32x26_1_1_0_0_n_n.lhsIdx (ix2 b k) ((ValueIdx.contrEquiv1 dot_S32x10240_S26x10240_S32x26_1_1_0_0_n_n 10240 rfl rfl).symm d) = ix2 b d := funext fun a => Fin.ext (by
    match a with
    | ⟨0, _⟩ => exact lhs_cls_0 _ _
    | ⟨1, _⟩ => exact (lhs_cls_1 _ _).trans hd)
  have er : dot_S32x10240_S26x10240_S32x26_1_1_0_0_n_n.rhsIdx (ix2 b k) ((ValueIdx.contrEquiv1 dot_S32x10240_S26x10240_S32x26_1_1_0_0_n_n 10240 rfl rfl).symm d) = ix2 k d := funext fun a => Fin.ext (by
    match a with
    | ⟨0, _⟩ => exact rhs_cls_0 _ _
    | ⟨1, _⟩ => exact (rhs_cls_1 _ _).trans hd)
  rw [el, er]

/-- A tile's term at sample `b`, dimension `e` of the block. -/
theorem tileTerm_apply (oh : Vec Ideal S32x128x128 .bf16) (lv iw : Vec Ideal S128x640 .bf16) (b : Fin 32) (e : Fin 640) :
    tileTerm (F := Ideal) oh lv iw (ix2 b e)
      = ∑ r : Fin 128, (iw (ix2 r e) : EReal) * ∑ l : Fin 128, (oh (ix3 b r l) : EReal) * (lv (ix2 l e) : EReal) := by
  unfold tileTerm
  refine (sum_feature _ _ _ _ b e).trans ?_
  refine Finset.sum_congr rfl fun r _ => ?_
  rw [mulf_apply, bcast_samples, shapeCast_ab_1ab_apply, extf_apply, shapeCast_self, cast_rows_out, matmul_tile_apply]
  refine congrArg _ (Finset.sum_congr rfl fun l _ => ?_)
  rw [cast_rows_in, shapeCast_self, shapeCast_self]

/-- The second kernel's body at sample `b`, class `k`. -/
theorem pay_classify_apply (ms : Vec Ideal S32x10240 .f32) (cw : Vec Ideal S26x10240 .f32) (b : Fin 32) (k : Fin 26) :
    k1_pay1 (F := Ideal) ms cw (ix2 b k)
      = ∑ d : Fin 10240, Cert.Hdc.quant (ms (ix2 b d)) * (cw (ix2 k d) : EReal) := by
  unfold k1_pay1
  refine (matmul_cls_apply _ _ b k).trans ?_
  refine Finset.sum_congr rfl fun d _ => ?_
  rw [truncf_apply, truncf_apply, shapeCast_self, shapeCast_self]
  rfl

end Cert.Hdc.Tile

end
-- ==== Proof.HostVals.lean ====
/-
  What the kernel's host operations leave in the four arrays the two kernels read, element by element.
-/
import proofs.«163554_j36850819399702_1_alg».proof.Proof.Gen.KernelIdeal.Frame
import proofs.«163554_j36850819399702_1_alg».proof.Proof.Spec
import Idealize.ShloMosaic.Lib.StableHlo.Run
import Idealize.ShloMosaic.Lib.KernelVsHost

noncomputable section

open scoped BigOperators

namespace Cert.Hdc.HostVals

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The four argument arrays on core `c`. -/
abbrev xArg (c : Dev nD) : S32x617.Idx → EReal := m ((c : Thread nD τ).loc main_arg0)
abbrev idwArg (c : Dev nD) : S617x10000.Idx → EReal := m ((c : Thread nD τ).loc main_arg1)
abbrev lvlArg (c : Dev nD) : S100x10000.Idx → EReal := m ((c : Thread nD τ).loc main_arg2)
abbrev clsArg (c : Dev nD) : S26x10000.Idx → EReal := m ((c : Thread nD τ).loc main_arg3)

/-! ## The one-hot array -/

/-- The level words of the 617 features of every sample: the value times 99, rounded to the nearest integer (ties to
    even), clipped to `[0, 99]`, converted to a signed word. -/
private abbrev words (c : Dev nD) : IVec S32x617 32 :=
  fptosi (F := Ideal) (φ := .f32) 32
    (minimumf (F := Ideal) (φ := .f32)
      (broadcastInDim S32x617 ![] bcast_S_S32x617 (sitofp (F := Ideal) .f32 (constantI S_ 32 99#32)))
      (maximumf (F := Ideal) (φ := .f32)
        (broadcastInDim S32x617 ![] bcast_S_S32x617 (sitofp (F := Ideal) .f32 (constantI S_ 32 0#32)))
        (Host.roundeven (F := Ideal) (φ := .f32)
          (mulf (F := Ideal) (φ := .f32) (xArg m c)
            (broadcastInDim S32x617 ![] bcast_S_S32x617 (constant (F := Ideal) S_ .f32 0x42C60000#32))))))

/-- The words with 23 zero features appended to every sample. -/
private abbrev wordsPad (c : Dev nD) : IVec S32x640 32 :=
  pad S32x640 ![0, 0] ![0, 23] ![0, 0] (words m c) (id (constantI S_ 32 0#32)) pads_S32x617_S32x640_000_0230 h_S_

/-- The padded words repeated along the 128 lanes. -/
private abbrev wordsLanes (c : Dev nD) : IVec S32x640x128 32 :=
  broadcastInDim S32x640x128 ![0, 1, 2] bcast_S32x640x1_S32x640x128_0_1_2
    (broadcastInDim S32x640x1 ![0, 1] bcast_S32x640_S32x640x1_0_1 (wordsPad m c))

/-- The lane number, repeated over every sample and feature. -/
private abbrev laneNos : IVec S32x640x128 32 :=
  broadcastInDim S32x640x128 ![0, 1, 2] bcast_S1x1x128_S32x640x128_0_1_2
    (broadcastInDim S1x1x128 ![2] bcast_S128_S1x1x128_2 (iotaInDim S128 32 0))

/-- The one-hot buffer as a whole: the comparison of the repeated words with the lane numbers, its bit read as a number. -/
private theorem v12_whole (c : Dev nD) :
    (V12 m ρ c main_v12 : S32x640x128.Idx → EReal)
      = uitofp (F := Ideal) .bf16 (cmpi .eq (wordsLanes m c) laneNos) := by
  dsimp only [V12, W12, W11, W10, W9, W8, W7, W6, W5, W4, W3, W2, W1,
    hostOps0, hostOps0_1, hostOps0_2, hostOps0_3, hostOps0_4, hostOps0_5, hostOps0_6, hostOps0_7, hostOps0_8,
    hostOps0_9, hostOps0_10, hostOps0_11]
  after_results
  simp only [StableHlo.TRef.ofBuf, StableHlo.TRef.toBuf, cast_eq]

/-- A real feature's word is the level word of its value: the chain is the level word's own spelling, element by element. -/
private theorem words_apply (c : Dev nD) (b : Fin 32) (s : Fin 617) :
    words m c (ix2 b s) = Cert.Hdc.lvlWord (xArg m c (ix2 b s)) := rfl

/-- The padded words are the padded level words. -/
private theorem wordsPad_apply (c : Dev nD) (b : Fin 32) (s : Fin 640) :
    wordsPad m c (ix2 b s) = Cert.Hdc.padWord (xArg m c) b s := by
  unfold Cert.Hdc.padWord
  by_cases h : s.val < 617
  · rw [dif_pos h, ← words_apply m c b ⟨s.val, h⟩]
    exact pad_apply_of_inside _ _ _ (words m c) _ pads_S32x617_S32x640_000_0230 h_S_ _
      (ix2 b (⟨s.val, h⟩ : Fin 617)) (fun a => by
        match a with
        | ⟨0, _⟩ => show b.val = 0 + b.val * (0 + 1); omega
        | ⟨1, _⟩ => show s.val = 0 + s.val * (0 + 1); omega)
  · rw [dif_neg h]
    exact pad_apply_of_not_inside _ _ _ (words m c) _ pads_S32x617_S32x640_000_0230 h_S_ _ (1 : Fin 2) (by
      show ¬(0 ≤ s.val ∧ (s.val - 0) % (0 + 1) = 0 ∧ (s.val - 0) / (0 + 1) < 617)
      omega)

/-- Along the lanes the words do not change. -/
private theorem wordsLanes_apply (c : Dev nD) (b : Fin 32) (s : Fin 640) (l : Fin 128) :
    wordsLanes m c (ix3 b s l) = wordsPad m c (ix2 b s) := by
  have e1 : wordsLanes m c (ix3 b s l)
      = broadcastInDim S32x640x1 ![0, 1] bcast_S32x640_S32x640x1_0_1 (wordsPad m c) (ix3 b s (0 : Fin 1)) :=
    broadcastInDim_apply _ bcast_S32x640x1_S32x640x128_0_1_2 _ (ix3 b s l) (ix3 b s (0 : Fin 1)) (fun a => by
      match a with
      | ⟨0, _⟩ => show b.val = if (32 : Nat) = 1 then 0 else b.val; rw [if_neg (by decide)]
      | ⟨1, _⟩ => show s.val = if (640 : Nat) = 1 then 0 else s.val; rw [if_neg (by decide)]
      | ⟨2, _⟩ => show 0 = if (1 : Nat) = 1 then 0 else l.val; rw [if_pos rfl])
  rw [e1]
  exact broadcastInDim_apply _ bcast_S32x640_S32x640x1_0_1 (wordsPad m c) (ix3 b s (0 : Fin 1)) (ix2 b s) (fun a => by
    match a with
    | ⟨0, _⟩ => show b.val = if (32 : Nat) = 1 then 0 else b.val; rw [if_neg (by decide)]
    | ⟨1, _⟩ => show s.val = if (640 : Nat) = 1 then 0 else s.val; rw [if_neg (by decide)])

/-- The lane numbers read the lane. -/
private theorem laneNos_apply (b : Fin 32) (s : Fin 640) (l : Fin 128) :
    laneNos (ix3 b s l) = BitVec.ofNat 32 l.val := by
  have e1 : laneNos (ix3 b s l)
      = broadcastInDim S1x1x128 ![2] bcast_S128_S1x1x128_2 (iotaInDim S128 32 0) (ix3 (0 : Fin 1) (0 : Fin 1) l) :=
    broadcastInDim_apply _ bcast_S1x1x128_S32x640x128_0_1_2 _ (ix3 b s l) (ix3 (0 : Fin 1) (0 : Fin 1) l) (fun a => by
      match a with
      | ⟨0, _⟩ => show 0 = if (1 : Nat) = 1 then 0 else b.val; rw [if_pos rfl]
      | ⟨1, _⟩ => show 0 = if (1 : Nat) = 1 then 0 else s.val; rw [if_pos rfl]
      | ⟨2, _⟩ => show l.val = if (128 : Nat) = 1 then 0 else l.val; rw [if_neg (by decide)])
  rw [e1, broadcastInDim_apply _ bcast_S128_S1x1x128_2 (iotaInDim S128 32 0) (ix3 (0 : Fin 1) (0 : Fin 1) l) (ix1 l) (fun a => by
    match a with
    | ⟨0, _⟩ => show l.val = if (128 : Nat) = 1 then 0 else l.val; rw [if_neg (by decide)])]
  rfl

theorem onehot_apply (c : Dev nD) (b : Fin 32) (s : Fin 640) (l : Fin 128) :
    (V12 m ρ c main_v12 : S32x640x128.Idx → EReal) (ix3 b s l) = Cert.Hdc.oneHot (Cert.Hdc.padWord (xArg m c) b s) l := by
  rw [v12_whole m ρ c, ← wordsPad_apply m c b s, ← wordsLanes_apply m c b s l]
  show (FloatOps.uitofp (F := Ideal) .bf16 (IntOp.cmpi .eq (wordsLanes m c (ix3 b s l)) (laneNos (ix3 b s l))) : EReal) = _
  rw [laneNos_apply b s l]
  rfl

/-! ## The three weight arrays: an argument padded with zeros -/

/-- The identity-weight buffer as a whole: the argument padded by 23 zero rows and 240 zero columns (the narrowing to bf16 changes no extended real). -/
private theorem v14_whole (c : Dev nD) :
    (V12 m ρ c main_v14 : S640x10240.Idx → EReal)
      = truncf .bf16 (pad S640x10240 ![0, 0] ![23, 240] ![0, 0] (idwArg m c)
          (sitofp (F := Ideal) .f32 (constantI S_ 32 0#32)) pads_S617x10000_S640x10240_0230_02400 h_S_ : FVec Ideal S640x10240 .f32) bitsLt_bf16_f32 := by
  dsimp only [V12, W12, W11, W10, W9, W8, W7, W6, W5, W4, W3, W2, W1,
    hostOps0, hostOps0_1, hostOps0_2, hostOps0_3, hostOps0_4, hostOps0_5, hostOps0_6, hostOps0_7, hostOps0_8,
    hostOps0_9, hostOps0_10, hostOps0_11]
  after_results
  simp only [StableHlo.TRef.ofBuf, StableHlo.TRef.toBuf, cast_eq]

theorem idw_apply (c : Dev nD) (s : Fin 640) (d : Fin 10240) :
    (V12 m ρ c main_v14 : S640x10240.Idx → EReal) (ix2 s d) = Cert.Hdc.idwPad (idwArg m c) s d := by
  rw [v14_whole m ρ c, truncf_apply]
  unfold Cert.Hdc.idwPad
  by_cases h : s.val < 617 ∧ d.val < 10000
  · rw [dif_pos h]
    exact pad_apply_of_inside _ _ _ (idwArg m c) _ pads_S617x10000_S640x10240_0230_02400 h_S_ _
      (ix2 (⟨s.val, h.1⟩ : Fin 617) (⟨d.val, h.2⟩ : Fin 10000)) (fun a => by
        match a with
        | ⟨0, _⟩ => show s.val = 0 + s.val * (0 + 1); omega
        | ⟨1, _⟩ => show d.val = 0 + d.val * (0 + 1); omega)
  · rw [dif_neg h]
    have hz : (sitofp (F := Ideal) .f32 (constantI S_ 32 0#32) : FVec Ideal S_ .f32) (Shape.Idx.first h_S_) = 0 := by
      show (((0#32 : BitVec 32).toInt : ℝ) : EReal) = 0
      simp
    by_cases h0 : s.val < 617
    · have h1 : ¬ d.val < 10000 := fun h1 => h ⟨h0, h1⟩
      rw [pad_apply_of_not_inside _ _ _ (idwArg m c) _ pads_S617x10000_S640x10240_0230_02400 h_S_ _ (1 : Fin 2) (by
        show ¬(0 ≤ d.val ∧ (d.val - 0) % (0 + 1) = 0 ∧ (d.val - 0) / (0 + 1) < 10000)
        omega)]
      exact hz
    · rw [pad_apply_of_not_inside _ _ _ (idwArg m c) _ pads_S617x10000_S640x10240_0230_02400 h_S_ _ (0 : Fin 2) (by
        show ¬(0 ≤ s.val ∧ (s.val - 0) % (0 + 1) = 0 ∧ (s.val - 0) / (0 + 1) < 617)
        omega)]
      exact hz

/-- The level-table buffer as a whole: the argument padded by 28 zero rows and 240 zero columns (the narrowing to bf16 changes no extended real). -/
private theorem v16_whole (c : Dev nD) :
    (V12 m ρ c main_v16 : S128x10240.Idx → EReal)
      = truncf .bf16 (pad S128x10240 ![0, 0] ![28, 240] ![0, 0] (lvlArg m c)
          (sitofp (F := Ideal) .f32 (constantI S_ 32 0#32)) pads_S100x10000_S128x10240_0280_02400 h_S_ : FVec Ideal S128x10240 .f32) bitsLt_bf16_f32 := by
  dsimp only [V12, W12, W11, W10, W9, W8, W7, W6, W5, W4, W3, W2, W1,
    hostOps0, hostOps0_1, hostOps0_2, hostOps0_3, hostOps0_4, hostOps0_5, hostOps0_6, hostOps0_7, hostOps0_8,
    hostOps0_9, hostOps0_10, hostOps0_11]
  after_results
  simp only [StableHlo.TRef.ofBuf, StableHlo.TRef.toBuf, cast_eq]

theorem lvl_apply (c : Dev nD) (l : Fin 128) (d : Fin 10240) :
    (V12 m ρ c main_v16 : S128x10240.Idx → EReal) (ix2 l d) = Cert.Hdc.lvlPad (lvlArg m c) l d := by
  rw [v16_whole m ρ c, truncf_apply]
  unfold Cert.Hdc.lvlPad
  by_cases h : l.val < 100 ∧ d.val < 10000
  · rw [dif_pos h]
    exact pad_apply_of_inside _ _ _ (lvlArg m c) _ pads_S100x10000_S128x10240_0280_02400 h_S_ _
      (ix2 (⟨l.val, h.1⟩ : Fin 100) (⟨d.val, h.2⟩ : Fin 10000)) (fun a => by
        match a with
        | ⟨0, _⟩ => show l.val = 0 + l.val * (0 + 1); omega
        | ⟨1, _⟩ => show d.val = 0 + d.val * (0 + 1); omega)
  · rw [dif_neg h]
    have hz : (sitofp (F := Ideal) .f32 (constantI S_ 32 0#32) : FVec Ideal S_ .f32) (Shape.Idx.first h_S_) = 0 := by
      show (((0#32 : BitVec 32).toInt : ℝ) : EReal) = 0
      simp
    by_cases h0 : l.val < 100
    · have h1 : ¬ d.val < 10000 := fun h1 => h ⟨h0, h1⟩
      rw [pad_apply_of_not_inside _ _ _ (lvlArg m c) _ pads_S100x10000_S128x10240_0280_02400 h_S_ _ (1 : Fin 2) (by
        show ¬(0 ≤ d.val ∧ (d.val - 0) % (0 + 1) = 0 ∧ (d.val - 0) / (0 + 1) < 10000)
        omega)]
      exact hz
    · rw [pad_apply_of_not_inside _ _ _ (lvlArg m c) _ pads_S100x10000_S128x10240_0280_02400 h_S_ _ (0 : Fin 2) (by
        show ¬(0 ≤ l.val ∧ (l.val - 0) % (0 + 1) = 0 ∧ (l.val - 0) / (0 + 1) < 100)
        omega)]
      exact hz

/-- The class-weight buffer as a whole: the argument padded by 240 zero columns. -/
private theorem v17_whole (c : Dev nD) :
    (V12 m ρ c main_v17 : S26x10240.Idx → EReal)
      = pad S26x10240 ![0, 0] ![0, 240] ![0, 0] (clsArg m c)
          (sitofp (F := Ideal) .f32 (constantI S_ 32 0#32)) pads_S26x10000_S26x10240_000_02400 h_S_ := by
  dsimp only [V12, W12, W11, W10, W9, W8, W7, W6, W5, W4, W3, W2, W1,
    hostOps0, hostOps0_1, hostOps0_2, hostOps0_3, hostOps0_4, hostOps0_5, hostOps0_6, hostOps0_7, hostOps0_8,
    hostOps0_9, hostOps0_10, hostOps0_11]
  after_results
  simp only [StableHlo.TRef.ofBuf, StableHlo.TRef.toBuf, cast_eq]

theorem cls_apply (c : Dev nD) (k : Fin 26) (d : Fin 10240) :
    (V12 m ρ c main_v17 : S26x10240.Idx → EReal) (ix2 k d) = Cert.Hdc.clsPad (clsArg m c) k d := by
  rw [v17_whole m ρ c]
  unfold Cert.Hdc.clsPad
  by_cases h : d.val < 10000
  · rw [dif_pos h]
    exact pad_apply_of_inside _ _ _ (clsArg m c) _ pads_S26x10000_S26x10240_000_02400 h_S_ _
      (ix2 k (⟨d.val, h⟩ : Fin 10000)) (fun a => by
        match a with
        | ⟨0, _⟩ => show k.val = 0 + k.val * (0 + 1); omega
        | ⟨1, _⟩ => show d.val = 0 + d.val * (0 + 1); omega)
  · rw [dif_neg h]
    rw [pad_apply_of_not_inside _ _ _ (clsArg m c) _ pads_S26x10000_S26x10240_000_02400 h_S_ _ (1 : Fin 2) (by
      show ¬(0 ≤ d.val ∧ (d.val - 0) % (0 + 1) = 0 ∧ (d.val - 0) / (0 + 1) < 10000)
      omega)]
    show (((0#32 : BitVec 32).toInt : ℝ) : EReal) = 0
    simp

end Cert.Hdc.HostVals

end
-- ==== Proof.KernelValue.lean ====
/-
  The kernel program's result buffer after the run, entry by entry, is the classifier's logit.

  The result is the second kernel's value of the bundle array the first kernel leaves and of the padded class
  weights. An entry of the bundle array is the first kernel's body at the point owning its dimension: five tile terms
  over the tile's 128 features, together the sum over the 640 padded features of the padded identity weight times
  the one-hot contraction of the padded level table. With the host operations read at an index this is the padded
  bundle, and the padded dimensions add nothing to a logit.
-/
import proofs.«163554_j36850819399702_1_alg».proof.Proof.Region0Array
import proofs.«163554_j36850819399702_1_alg».proof.Proof.Region1
import proofs.«163554_j36850819399702_1_alg».proof.Proof.TileValue
import proofs.«163554_j36850819399702_1_alg».proof.Proof.HostVals
import proofs.«163554_j36850819399702_1_alg».proof.Proof.Spec

set_option maxRecDepth 16384

noncomputable section

open scoped BigOperators

namespace Cert.Hdc.KernelValue

open Idealize.ShloMosaic Idealize.ShloMosaic.TcCoe Idealize.ShloMosaic.ValueIdx Idealize.SL.Sem Cert.KernelIdeal Cert.KernelIdeal.Gen
open Cert.Hdc Cert.Hdc.Body0 Cert.Hdc.Tile Cert.Hdc.HostVals

/-! ## The first kernel's body at an index -/

/-- A tile's rows of the one-hot block, read at an index of the tile. -/
theorem ld_oh (x0 : Vec Ideal S32x640x128 .bf16) (off : Nat) (h : ∀ a, (![0, off, 0] : Fin 3 → Nat) a + S32x128x128.size a ≤ S32x640x128.size a)
    (b : Fin 32) (r l : Fin 128) :
    (View.ld x0 (Rect.unit (s := S32x640x128) ![0, off, 0] S32x128x128.size h) (ix3 b r l) : EReal)
      = x0 (ix3 b ⟨off + r.val, by have := h 1; have h1 : off + 128 ≤ 640 := this; omega⟩ l) := by
  show x0 ((Rect.unit (s := S32x640x128) ![0, off, 0] S32x128x128.size h).idx (ix3 b r l)) = _
  refine congrArg x0 (funext fun a => Fin.ext ?_)
  match a with
  | ⟨0, _⟩ => show 0 + 1 * b.val = b.val; omega
  | ⟨1, _⟩ => show off + 1 * r.val = off + r.val; omega
  | ⟨2, _⟩ => show 0 + 1 * l.val = l.val; omega

/-- A tile's rows of the identity-weight block, read at an index of the tile. -/
theorem ld_iw (x1 : Vec Ideal S640x640 .bf16) (off : Nat) (h : ∀ a, (![off, 0] : Fin 2 → Nat) a + S128x640.size a ≤ S640x640.size a)
    (r : Fin 128) (e : Fin 640) :
    (View.ld x1 (Rect.unit (s := S640x640) ![off, 0] S128x640.size h) (ix2 r e) : EReal)
      = x1 (ix2 ⟨off + r.val, by have := h 0; have h1 : off + 128 ≤ 640 := this; omega⟩ e) := by
  show x1 ((Rect.unit (s := S640x640) ![off, 0] S128x640.size h).idx (ix2 r e)) = _
  refine congrArg x1 (funext fun a => Fin.ext ?_)
  match a with
  | ⟨0, _⟩ => show off + 1 * r.val = off + r.val; omega
  | ⟨1, _⟩ => show 0 + 1 * e.val = e.val; omega

/-- One tile's term is the sum, over the tile's 128 features `off + r`, of the identity weight times the one-hot
    contraction of the level block. -/
theorem tile_sum (x0 : Vec Ideal S32x640x128 .bf16) (x1 : Vec Ideal S640x640 .bf16) (x2 : Vec Ideal S128x640 .bf16)
    (b : Fin 32) (e : Fin 640) (off : Nat) (hoff : off + 128 ≤ 640)
    (h0 : ∀ a, (![0, off, 0] : Fin 3 → Nat) a + S32x128x128.size a ≤ S32x640x128.size a)
    (h1 : ∀ a, (![off, 0] : Fin 2 → Nat) a + S128x640.size a ≤ S640x640.size a) :
    (∑ r : Fin 128, (View.ld x1 (Rect.unit (s := S640x640) ![off, 0] S128x640.size h1) (ix2 r e) : EReal)
        * ∑ l : Fin 128, (View.ld x0 (Rect.unit (s := S32x640x128) ![0, off, 0] S32x128x128.size h0) (ix3 b r l) : EReal) * (x2 (ix2 l e) : EReal))
      = ∑ r : Fin 128, (fun s : Fin 640 => (x1 (ix2 s e) : EReal) * ∑ l : Fin 128, (x0 (ix3 b s l) : EReal) * (x2 (ix2 l e) : EReal))
          ⟨off + r.val, by have := r.isLt; omega⟩ := by
  refine Finset.sum_congr rfl fun r _ => ?_
  rw [ld_iw]
  refine congrArg (_ * ·) (Finset.sum_congr rfl fun l _ => ?_)
  rw [ld_oh]

/-- The body's value at sample `b`, dimension `e` of the block: the sum over the block's 640 features of the identity
    weight times the one-hot contraction of the level block. -/
theorem bodyVal_apply (x0 : Vec Ideal S32x640x128 .bf16) (x1 : Vec Ideal S640x640 .bf16) (x2 : Vec Ideal S128x640 .bf16)
    (b : Fin 32) (e : Fin 640) :
    (bodyVal (F := Ideal) x0 x1 x2 (ix2 b e) : EReal)
      = ∑ s : Fin 640, (x1 (ix2 s e) : EReal) * ∑ l : Fin 128, (x0 (ix3 b s l) : EReal) * (x2 (ix2 l e) : EReal) := by
  unfold bodyVal
  rw [pay1_eq, pay3_eq, pay2_eq]
  show ((((Ideal.ofBits .f32 0x00000000#32 + tileTerm (F := Ideal) _ x2 _ (ix2 b e)) + tileTerm (F := Ideal) _ x2 _ (ix2 b e))
      + tileTerm (F := Ideal) _ x2 _ (ix2 b e)) + tileTerm (F := Ideal) _ x2 _ (ix2 b e)) + tileTerm (F := Ideal) _ x2 _ (ix2 b e) = _
  rw [tileTerm_apply, tileTerm_apply, tileTerm_apply, tileTerm_apply, tileTerm_apply, Ideal.ofBits_zero_f32, zero_add,
    tile_sum x0 x1 x2 b e 0 (by omega), tile_sum x0 x1 x2 b e 128 (by omega), tile_sum x0 x1 x2 b e 256 (by omega),
    tile_sum x0 x1 x2 b e 384 (by omega), tile_sum x0 x1 x2 b e 512 (by omega),
    ← sum_five_tiles (fun s => (x1 (ix2 s e) : EReal) * ∑ l : Fin 128, (x0 (ix3 b s l) : EReal) * (x2 (ix2 l e) : EReal)),
    Fin.sum_univ_five]
  rfl

/-! ## The bundle array and the result, entry by entry -/

variable (m : (ℓ : Loc nD τ sig) → Buf (Elt Ideal) ℓ) (ρ : Dev nD → PrngReg)

/-- The identity-weight column block that owns dimension `d`, at feature `s`, is the padded identity weight. -/
theorem iwBlock_apply (c : Dev nD) (s : Fin 640) (d : Fin 10240) :
    (Region0.iwBlock (V12 m ρ) c ⟨d.val / 640, by have := d.isLt; omega⟩ (ix2 s ⟨d.val % 640, Nat.mod_lt _ (by decide)⟩) : EReal)
      = idwPad (idwArg m c) s d := by
  rw [← idw_apply m ρ c s d]
  unfold Region0.iwBlock
  refine congrArg (V12 m ρ c main_v14 : S640x10240.Idx → EReal) (funext fun a => Fin.ext ?_)
  match a with
  | ⟨0, _⟩ => rfl
  | ⟨1, _⟩ => show 640 * (d.val / 640) + d.val % 640 = d.val; omega

/-- The level column block that owns dimension `d`, at row `l`, is the padded level table. -/
theorem lvBlock_apply (c : Dev nD) (l : Fin 128) (d : Fin 10240) :
    (Region0.lvBlock (V12 m ρ) c ⟨d.val / 640, by have := d.isLt; omega⟩ (ix2 l ⟨d.val % 640, Nat.mod_lt _ (by decide)⟩) : EReal)
      = lvlPad (lvlArg m c) l d := by
  rw [← lvl_apply m ρ c l d]
  unfold Region0.lvBlock
  refine congrArg (V12 m ρ c main_v16 : S128x10240.Idx → EReal) (funext fun a => Fin.ext ?_)
  match a with
  | ⟨0, _⟩ => rfl
  | ⟨1, _⟩ => show 640 * (d.val / 640) + d.val % 640 = d.val; omega

/-- The bundle array the first kernel leaves: the bundle on the real dimensions, `0` on the padding. -/
theorem bundleArr_apply (c : Dev nD) (b : Fin 32) (d : Fin 10240) :
    (Region0.bundleArr (V12 m ρ) c (ix2 b d) : EReal)
      = if h : d.val < 10000 then bundle (xArg m c) (idwArg m c) (lvlArg m c) b ⟨d.val, h⟩ else 0 := by
  rw [← padded_bundle, Region0.bundleArr_ix]
  refine (bodyVal_apply _ _ _ b ⟨d.val % 640, Nat.mod_lt _ (by decide)⟩).trans ?_
  refine Finset.sum_congr rfl fun s _ => ?_
  rw [iwBlock_apply]
  refine congrArg (idwPad (idwArg m c) s d * ·) (Finset.sum_congr rfl fun l _ => ?_)
  rw [lvBlock_apply, onehot_apply]

/-- THE RESULT: the kernel program's result buffer after the run holds the logits. -/
theorem result_apply (c : Dev nD) (b : Fin 32) (k : Fin 26) :
    (W14 m ρ c (Proc.devRef .tc main_v19) : S32x26.Idx → EReal) (ix2 b k)
      = logits (xArg m c) (idwArg m c) (lvlArg m c) (clsArg m c) b k := by
  have a3 : (V13 m ρ c main_v18 : S32x10240.Idx → EReal) = Region0.bundleArr (V12 m ρ) c :=
    (W13_arr m ρ c 3).trans (Region0.final (V12 m ρ) c)
  have a4 : (V13 m ρ c main_v17 : S26x10240.Idx → EReal) = V12 m ρ c main_v17 := W13_of_ne m ρ c main_v17 (by decide)
  have h1 : (W14 m ρ c (Proc.devRef .tc main_v19) : S32x26.Idx → EReal)
      = k1_pay1 (F := Ideal) (Region0.bundleArr (V12 m ρ) c) (V12 m ρ c main_v17) := by
    have a2 := Region1.final (V13 m ρ) c
    rw [a3, a4] at a2
    exact (W14_arr m ρ c 2).trans a2
  refine (congrFun h1 (ix2 b k)).trans ?_
  refine (pay_classify_apply _ _ b k).trans ?_
  rw [← padded_logits (xArg m c) (idwArg m c) (lvlArg m c) (clsArg m c)
      (fun b d => (Region0.bundleArr (V12 m ρ) c (ix2 b d) : EReal)) (fun b d => bundleArr_apply m ρ c b d) b k]
  refine Finset.sum_congr rfl fun d _ => ?_
  rw [cls_apply]

end Cert.Hdc.KernelValue

end
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.RefValue.lean ====
/-
  The reference's result, element by element, is the classifier's logit.
-/
import proofs.«163554_j36850819399702_1_alg».proof.Proof.Gen.ReferenceIdeal.Read
import proofs.«163554_j36850819399702_1_alg».proof.Proof.Spec
import proofs.«163554_j36850819399702_1_alg».proof.Proof.LibGatherScatter

noncomputable section

open scoped BigOperators

namespace Cert.Hdc.Ref

open Idealize.ShloMosaic Idealize.ShloMosaic.ValueIdx Cert.ReferenceIdeal Cert.ReferenceIdeal.Gen Cert.ReferenceIdeal.Read

/-! ## The gather of whole rows at a rank-3 array of start indices, read at an index -/

/-- The gather of whole rows of a rank-2 operand `[N, C]` at an array `[A, B, 1]` of start indices (axis 0 collapsed
    and start-indexed, axis 1 the one offset axis, going to the result's axis 2, the index vector on axis 2): result
    element `(a, b, f)` is the operand at row "start index `(a, b)`'s signed value clamped into `[0, N - 1]`",
    column `f`. -/
private theorem gather3_apply {α : Type} {N A B C : Nat} (hN : 0 < N)
    (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![A, B, 1]⟩ 32) (a : Fin A) (b : Fin B) (f : Fin C) :
    Host.gather d x idx (ix3 a b f) = x (ix2 (Cert.LibGatherScatter.clampIdx N hN (idx (ix3 a b 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext r
  apply Fin.ext
  match r with
  | ⟨0, _⟩ =>
    -- the row: the clamped start, no batching or offset coordinate
    show GatherDims.start _ _ idx 0 + GatherDims.batchCoord _ _ 0 + GatherDims.offCoord _ _ 0
      = min (idx (ix3 a b 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext q
    apply Fin.ext
    match q with
    | ⟨0, _⟩ => rfl
    | ⟨1, _⟩ => rfl
    | ⟨2, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The reference's operations read at an index -/

/-- The converted level array at `(b, s)` is the level word of the feature value there. -/
private theorem v4_at (x : (⟨S32x617, .f32⟩ : BufTy).Contents (Elt Ideal)) (b : Fin 32) (s : Fin 617) :
    val_main_v4 (F := Ideal) x (ix2 b s) = Cert.Hdc.lvlWord (x (ix2 b s)) := by
  rw [val_main_v4_apply, val_main_v3_apply, val_main_call1_v4_apply, val_main_call1_v3_apply, val_main_c_0_apply,
    val_main_call1_v2_apply, val_main_call1_v1_apply, val_main_call1_v0_apply, val_main_c_apply,
    val_main_v2_apply, val_main_v1_apply, val_main_v0_apply, val_main_cst_apply]
  rfl

/-- The negative-index wrap leaves the level word alone: its signed value is not negative. -/
private theorem v9_at (x : (⟨S32x617, .f32⟩ : BufTy).Contents (Elt Ideal)) (b : Fin 32) (s : Fin 617) :
    val_main_v9 (F := Ideal) x (ix2 b s) = Cert.Hdc.lvlWord (x (ix2 b s)) := by
  have h := Cert.LibGatherScatter.wrap_apply bcast_S_S32x617 bcast_S_S32x617 100#32 (val_main_v4 (F := Ideal) x) (ix2 b s)
  rw [v4_at, Cert.LibGatherScatter.wrapW_of_nonneg (Cert.Hdc.lvlWord_range (x (ix2 b s))).1] at h
  exact h

/-- The start indices at `(b, s, 0)` are the level word at `(b, s)`. -/
private theorem v10_at (x : (⟨S32x617, .f32⟩ : BufTy).Contents (Elt Ideal)) (b : Fin 32) (s : Fin 617) :
    val_main_v10 (F := Ideal) x (ix3 b s 0) = Cert.Hdc.lvlWord (x (ix2 b s)) := by
  have e : idx_main_v10 (ix3 b s (0 : Fin 1)) = ix2 b s :=
    funext fun a => Fin.ext (by match a with | ⟨0, _⟩ => rfl | ⟨1, _⟩ => rfl)
  rw [val_main_v10_apply, e, v9_at]

/-- The gathered rows at `(b, s, d)`: the level table at the feature's level, dimension `d` (the level word is a row
    number, so the clamp leaves it). -/
private theorem v11_at (x : (⟨S32x617, .f32⟩ : BufTy).Contents (Elt Ideal))
    (lvl : (⟨S100x10000, .f32⟩ : BufTy).Contents (Elt Ideal)) (b : Fin 32) (s : Fin 617) (d : Fin 10000) :
    val_main_v11 (F := Ideal) x lvl (ix3 b s d) = lvl (ix2 (Cert.Hdc.lvlIx (x (ix2 b s))) d) := by
  unfold val_main_v11
  have h := gather3_apply (N := 100) (A := 32) (B := 617) (C := 10000) (by decide)
    gather_S100x10000_S32x617x1_S32x617x10000_2_0_n_n_0_2_110000 rfl rfl rfl rfl rfl lvl (val_main_v10 (F := Ideal) x) b s d
  rw [v10_at] at h
  have hr := Cert.Hdc.lvlWord_range (x (ix2 b s))
  have hc : Cert.LibGatherScatter.clampIdx 100 (by decide) (Cert.Hdc.lvlWord (x (ix2 b s))) = Cert.Hdc.lvlIx (x (ix2 b s)) :=
    Fin.ext (Cert.LibGatherScatter.clampIdx_of_inRange (by decide) hr.1 hr.2)
  rw [hc] at h
  exact h

/-- The broadcast identity weights at `(b, s, d)` are the weight at `(s, d)`. -/
private theorem v13_at (idw : (⟨S617x10000, .f32⟩ : BufTy).Contents (Elt Ideal)) (b : Fin 32) (s : Fin 617) (d : Fin 10000) :
    val_main_v13 (F := Ideal) idw (ix3 b s d) = idw (ix2 s d) := by
  have e1 : idx_main_v13 (ix3 b s d) = ix3 (0 : Fin 1) s d :=
    funext fun a => Fin.ext (by match a with | ⟨0, _⟩ => rfl | ⟨1, _⟩ => rfl | ⟨2, _⟩ => rfl)
  have e2 : idx_main_v12 (ix3 (0 : Fin 1) s d) = ix2 s d :=
    funext fun a => Fin.ext (by match a with | ⟨0, _⟩ => rfl | ⟨1, _⟩ => rfl)
  rw [val_main_v13_apply, e1, val_main_v12_apply, e2]

/-- The reduced array at `(b, d)` is the sample's bundle at dimension `d`. -/
private theorem v15_at (x : (⟨S32x617, .f32⟩ : BufTy).Contents (Elt Ideal)) (idw : (⟨S617x10000, .f32⟩ : BufTy).Contents (Elt Ideal))
    (lvl : (⟨S100x10000, .f32⟩ : BufTy).Contents (Elt Ideal)) (b : Fin 32) (d : Fin 10000) :
    val_main_v15 (F := Ideal) x idw lvl (ix2 b d) = Cert.Hdc.bundle x idw lvl b d := by
  rw [val_main_v15_apply, val_main_cst_3_apply, Ideal.ofBits_def, Ideal.ofBits_zero_f32, zero_add]
  unfold Cert.Hdc.bundle
  refine Finset.sum_congr rfl fun s _ => ?_
  have e : idx_main_v15 (ix2 b d) s = ix3 b s d :=
    funext fun a => Fin.ext (by match a with | ⟨0, _⟩ => rfl | ⟨1, _⟩ => rfl | ⟨2, _⟩ => rfl)
  rw [e, val_main_v14_apply, v13_at, v11_at]
  rfl

/-- The selected array at `(b, d)` is the hard quantisation of the bundle. -/
private theorem v18_at (x : (⟨S32x617, .f32⟩ : BufTy).Contents (Elt Ideal)) (idw : (⟨S617x10000, .f32⟩ : BufTy).Contents (Elt Ideal))
    (lvl : (⟨S100x10000, .f32⟩ : BufTy).Contents (Elt Ideal)) (b : Fin 32) (d : Fin 10000) :
    val_main_v18 (F := Ideal) x idw lvl (ix2 b d) = Cert.Hdc.quant (Cert.Hdc.bundle x idw lvl b d) := by
  rw [val_main_v18_apply, val_main_v17_apply, val_main_v16_apply, val_main_cst_4_apply, val_main_call2_v0_apply,
    val_main_cst_5_apply, val_main_call2_v1_apply, val_main_cst_6_apply, v15_at]
  rfl

theorem ref_logits (x : (⟨S32x617, .f32⟩ : BufTy).Contents (Elt Ideal)) (idw : (⟨S617x10000, .f32⟩ : BufTy).Contents (Elt Ideal))
    (lvl : (⟨S100x10000, .f32⟩ : BufTy).Contents (Elt Ideal)) (cls : (⟨S26x10000, .f32⟩ : BufTy).Contents (Elt Ideal))
    (b : Fin 32) (c : Fin 26) :
    val_main_v19 (F := Ideal) x idw lvl cls (ix2 b c) = Cert.Hdc.logits x idw lvl cls b c := by
  rw [val_main_v19_apply]
  unfold Cert.Hdc.logits
  refine Finset.sum_congr rfl fun d _ => ?_
  have el : lidx_main_v19 (ix2 b c) d = ix2 b d :=
    funext fun a => Fin.ext (by match a with | ⟨0, _⟩ => rfl | ⟨1, _⟩ => rfl)
  have er : ridx_main_v19 (ix2 b c) d = ix2 c d :=
    funext fun a => Fin.ext (by match a with | ⟨0, _⟩ => rfl | ⟨1, _⟩ => rfl)
  rw [el, er, v18_at]

end Cert.Hdc.Ref

end
-- ==== Proof.lean ====
/-
  A hyperdimensional classifier: features quantised to one of 100 levels, each level's hypervector bound to the
  feature's identity hypervector by an elementwise product, the products bundled by a sum over the 617 features,
  the bundle hard-quantised to a sign and classified by a linear layer.

  The reference gathers the level rows. The kernel program replaces the gather by a one-hot contraction on a
  first kernel (features padded to 640 and processed in five tiles of 128, levels padded to 128, dimensions padded
  to 10240 and split over sixteen grid points) and quantises and classifies on a second kernel. At the ideal
  instance both end at the same logits: the level word is in `[0, 100)` whatever the feature value is (the clip), so
  the one-hot contraction picks exactly the gathered row; the padded features carry identity weight `0`; the padded
  dimensions carry class weight `0`. No law beyond `0 · a = 0`, `1 · a = a` and the commutative monoid of sums is used,
  so the finiteness of the inputs is never opened.

  The frames are the generated ones; the reference's frame is its generated run with the result dropped; the kernel
  program's run with its result named calls the launch theorem again over the generated segments.
-/
import proofs.«163554_j36850819399702_1_alg».proof.Defs
import proofs.«163554_j36850819399702_1_alg».proof.Proof.Gen.Kernel
import proofs.«163554_j36850819399702_1_alg».proof.Proof.Gen.Kernel.Frame
import proofs.«163554_j36850819399702_1_alg».proof.Proof.Gen.KernelIdeal
import proofs.«163554_j36850819399702_1_alg».proof.Proof.Gen.KernelIdeal.Frame
import proofs.«163554_j36850819399702_1_alg».proof.Proof.Gen.ReferenceIdeal
import proofs.«163554_j36850819399702_1_alg».proof.Proof.Gen.ReferenceIdeal.Run
import proofs.«163554_j36850819399702_1_alg».proof.Proof.Gen.ReferenceIdeal.Read
import proofs.«163554_j36850819399702_1_alg».proof.Proof.Gen.Pre_finite_inputs
import proofs.«163554_j36850819399702_1_alg».proof.Proof.KernelRun
import proofs.«163554_j36850819399702_1_alg».proof.Proof.KernelValue
import proofs.«163554_j36850819399702_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel program's result buffer after the run is the reference's result term of the same arguments: entry by
    entry both are the logit. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W14 m ρ c (Proc.devRef .tc Cert.KernelIdeal.main_v19) : Cert.KernelIdeal.S32x26.Idx → EReal)
      = Cert.ReferenceIdeal.Read.val_main_v19 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨b, k, rfl⟩ : ∃ (b : Fin 32) (k : Fin 26), i = ix2 b k := ⟨i 0, i 1, eq_ix2 i⟩
  rw [Cert.Hdc.KernelValue.result_apply m ρ c b k, Cert.Hdc.Ref.ref_logits]

theorem algebraic : Cert.algebraic_KernelIdeal_ReferenceIdeal := by
  intro m ρ m' ρ' _ hagree
  refine ⟨fun c => Cert.ReferenceIdeal.Read.val_main_v19 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
